-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v16_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part5 {F : FTy → Type} [FloatOps F] (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  main_v88

def fn_part4 {F : FTy → Type} [FloatOps F] (main_arg14 : FVec F S1024x2048 .f32) (main_arg15 : FVec F S1024 .f32) (main_arg16 : FVec F S4096x2048 .f32) (main_arg17 : FVec F S4096 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S4096x2048 .f32 := Host.absf main_arg16
  let main_cst_30 : FVec F S_ .f32 := constant S_ .f32 0x7F800000#32
  let main_v80 : FVec F S4096x2048 .f32 := broadcastInDim S4096x2048 ![] bcast_S_S4096x2048 main_cst_30
  let main_v81 : IVec S4096x2048 1 := cmpf .olt main_v79 main_v80
  let main_c_31 : IVec S_ 1 := constantI S_ 1 1#1
  let main_v82 : IVec S_ 1 := (fun x v => Host.reduce IntOp.andi x v reducesTo_S4096x2048_S_d0_1 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x2048 .f32 := Host.absf main_arg12
  let main_cst_22 : FVec F S_ .f32 := constant S_ .f32 0x7F800000#32
  let main_v60 : FVec F S1024x2048 .f32 := broadcastInDim S1024x2048 ![] bcast_S_S1024x2048 main_cst_22
  let main_v61 : IVec S1024x2048 1 := cmpf .olt main_v59 main_v60
  let main_c_23 : IVec S_ 1 := constantI S_ 1 1#1
  let main_v62 : IVec S_ 1 := (fun x v => Host.reduce IntOp.andi x v reducesTo_S1024x2048_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x2048 .f32 := Host.absf main_arg10
  let main_cst_18 : FVec F S_ .f32 := constant S_ .f32 0x7F800000#32
  let main_v50 : FVec F S1024x2048 .f32 := broadcastInDim S1024x2048 ![] bcast_S_S1024x2048 main_cst_18
  fn_part3 (F := F) main_arg11 main_arg12 main_arg13 main_arg14 main_arg15 main_arg16 main_arg17 main_v48 main_v49 main_v50

def fn_part1 {F : FTy → Type} [FloatOps F] (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x2048 .f32) (main_arg13 : FVec F S1024 .f32) (main_arg14 : FVec F S1024x2048 .f32) (main_arg15 : FVec F S1024 .f32) (main_arg16 : FVec F S4096x2048 .f32) (main_arg17 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S6144x2048 : Shape := ⟨2, ![6144, 2048]⟩
abbrev S6144 : Shape := ⟨1, ![6144]⟩
abbrev S6144x1024 : Shape := ⟨2, ![6144, 1024]⟩
abbrev S1024x6144 : Shape := ⟨2, ![1024, 6144]⟩
abbrev S1x6144 : Shape := ⟨2, ![1, 6144]⟩
abbrev S4096x1024 : Shape := ⟨2, ![4096, 1024]⟩
abbrev S1024x4096 : Shape := ⟨2, ![1024, 4096]⟩
abbrev S1x4096 : Shape := ⟨2, ![1, 4096]⟩
abbrev S128x1024 : Shape := ⟨2, ![128, 1024]⟩
abbrev S128x6144 : Shape := ⟨2, ![128, 6144]⟩
abbrev S8192x4096 : Shape := ⟨2, ![8192, 4096]⟩
abbrev S256x1024 : Shape := ⟨2, ![256, 1024]⟩
abbrev S256x4096 : Shape := ⟨2, ![256, 4096]⟩
abbrev S8192x1024x4 : Shape := ⟨3, ![8192, 1024, 4]⟩

abbrev nBuf : Space → Nat
  | .hbm => 39
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x2048, .f32⟩
  | .hbm, ⟨13, _⟩ => ⟨S1024, .f32⟩
  | .hbm, ⟨14, _⟩ => ⟨S1024x2048, .f32⟩
  | .hbm, ⟨15, _⟩ => ⟨S1024, .f32⟩
  | .hbm, ⟨16, _⟩ => ⟨S4096x2048, .f32⟩
  | .hbm, ⟨17, _⟩ => ⟨S4096, .f32⟩
  | .hbm, ⟨18, _⟩ => ⟨S6144x2048, .f32⟩
  | .hbm, ⟨19, _⟩ => ⟨S6144, .f32⟩
  | .hbm, ⟨20, _⟩ => ⟨S6144x1024, .f32⟩
  | .hbm, ⟨21, _⟩ => ⟨S1024x6144, .f32⟩
  | .hbm, ⟨22, _⟩ => ⟨S1024x6144, .bf16⟩
  | .hbm, ⟨23, _⟩ => ⟨S6144x1024, .f32⟩
  | .hbm, ⟨24, _⟩ => ⟨S1024x6144, .f32⟩
  | .hbm, ⟨25, _⟩ => ⟨S1024x6144, .bf16⟩
  | .hbm, ⟨26, _⟩ => ⟨S1x6144, .f32⟩
  | .hbm, ⟨27, _⟩ => ⟨S4096x1024, .f32⟩
  | .hbm, ⟨28, _⟩ => ⟨S1024x4096, .f32⟩
  | .hbm, ⟨29, _⟩ => ⟨S1024x4096, .bf16⟩
  | .hbm, ⟨30, _⟩ => ⟨S4096x1024, .f32⟩
  | .hbm, ⟨31, _⟩ => ⟨S1024x4096, .f32⟩
  | .hbm, ⟨32, _⟩ => ⟨S1024x4096, .bf16⟩
  | .hbm, ⟨33, _⟩ => ⟨S1x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x4096, .f32⟩
  | .hbm, ⟨38, _⟩ => ⟨S8192x1024x4, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x6144, .bf16⟩
  | .local _ .vmem, ⟨9, _⟩ => ⟨S1024x6144, .bf16⟩
  | .local _ .vmem, ⟨10, _⟩ => ⟨S1x6144, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x4096, .bf16⟩
  | .local _ .vmem, ⟨22, _⟩ => ⟨S1024x4096, .bf16⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S1024x2048_S1024x2048_S1024x2048_S1024x2048_S1024x2048_S1024x2048_S6144x2048_d0 : Shape.Concatenates [S1024x2048, S1024x2048, S1024x2048, S1024x2048, S1024x2048, S1024x2048] S6144x2048 0
  concatenates_S1024_S1024_S1024_S1024_S1024_S1024_S6144_d0 : Shape.Concatenates [S1024, S1024, S1024, S1024, S1024, S1024] S6144 0
  slices_S6144x2048_S6144x1024_0_0 : S6144x2048.Slices ![0, 0] S6144x1024
  transposes_S6144x1024_S1024x6144_1_0 : S6144x1024.Transposes [1, 0] S1024x6144
  bitsLt_bf16_f32 : FTy.bits .bf16 < FTy.bits .f32
  slices_S6144x2048_S6144x1024_0_1024 : S6144x2048.Slices ![0, 1024] S6144x1024
  shapeCasts_S6144_S1x6144 : S6144.ShapeCasts S1x6144
  slices_S4096x2048_S4096x1024_0_0 : S4096x2048.Slices ![0, 0] S4096x1024
  transposes_S4096x1024_S1024x4096_1_0 : S4096x1024.Transposes [1, 0] S1024x4096
  slices_S4096x2048_S4096x1024_0_1024 : S4096x2048.Slices ![0, 1024] S4096x1024
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x6144_S1024x6144_0_0 : ∀ a, (![0, 0] : Fin 2 → Nat) a + S1024x6144.size a ≤ S1024x6144.size a
  h_S1024x6144 : 0 < S1024x6144.numel
  shapeCasts_S1024x6144_S1024x6144 : S1024x6144.ShapeCasts S1024x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S128x6144 : S1x6144.Broadcasts S128x6144
  slices_S128x6144_o0_0_S128x1024 : S128x6144.Slices ![0, 0] S128x1024
  slices_S128x6144_o0_1024_S128x1024 : S128x6144.Slices ![0, 1024] S128x1024
  slices_S128x6144_o0_2048_S128x1024 : S128x6144.Slices ![0, 2048] S128x1024
  slices_S128x6144_o0_3072_S128x1024 : S128x6144.Slices ![0, 3072] S128x1024
  slices_S128x6144_o0_4096_S128x1024 : S128x6144.Slices ![0, 4096] S128x1024
  slices_S128x6144_o0_5120_S128x1024 : S128x6144.Slices ![0, 5120] S128x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S8192x4096_S8192x1024x4 : S8192x4096.ShapeCasts S8192x1024x4
  dot_S128x1024_S1024x6144_S128x6144_1_0_0_1_n_n_wf : DotDims.WF S128x1024 S1024x6144 S128x6144 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x1024.size a
  hwx0_3 : ∀ i : grid0.Coords, EltTy.bits .f32 = 32 ∨ (Rect.block (s := S8192x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x6144.size a ≤ S1024x6144.size a
  hwx0_4 : ∀ i : grid0.Coords, EltTy.bits .bf16 = 32 ∨ (Rect.block (s := S1024x6144) S1024x6144.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x6144.size a ≤ S1024x6144.size a
  hwx0_5 : ∀ i : grid0.Coords, EltTy.bits .bf16 = 32 ∨ (Rect.block (s := S1024x6144) S1024x6144.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6144.size a ≤ S1x6144.size a
  hwx0_6 : ∀ i : grid0.Coords, EltTy.bits .f32 = 32 ∨ (Rect.block (s := S1x6144) S1x6144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .f32 = 32 ∨ (Rect.block (s := S8192x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S1024x4096.size a
  hwx1_2 : ∀ i : grid1.Coords, EltTy.bits .bf16 = 32 ∨ (Rect.block (s := S1024x4096) S1024x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S128x1024_S1024x6144_S128x6144_1_0_0_1_n_n : DotDims S128x1024 S1024x6144 S128x6144 where
  lhsContracting := [1]
  rhsContracting := [0]
  lhsNonContracting := [0]
  rhsNonContracting := [1]
  lhsBatch := []
  rhsBatch := []
  wf := dot_S128x1024_S1024x6144_S128x6144_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S8192x2048 : Shape := ⟨2, ![8192, 2048]⟩
abbrev S10240x2048 : Shape := ⟨2, ![10240, 2048]⟩
abbrev S10240 : Shape := ⟨1, ![10240]⟩
abbrev S2048x10240 : Shape := ⟨2, ![2048, 10240]⟩
abbrev S8192x10240 : Shape := ⟨2, ![8192, 10240]⟩
abbrev S1x10240 : Shape := ⟨2, ![1, 10240]⟩
abbrev S_ : Shape := ⟨0, ![]⟩
abbrev S8192x4096 : Shape := ⟨2, ![8192, 4096]⟩
abbrev S8192x1024x4 : Shape := ⟨3, ![8192, 1024, 4]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x2048, .f32⟩
  | .hbm, ⟨13, _⟩ => ⟨S1024, .f32⟩
  | .hbm, ⟨14, _⟩ => ⟨S1024x2048, .f32⟩
  | .hbm, ⟨15, _⟩ => ⟨S1024, .f32⟩
  | .hbm, ⟨16, _⟩ => ⟨S4096x2048, .f32⟩
  | .hbm, ⟨17, _⟩ => ⟨S4096, .f32⟩
  | .hbm, ⟨18, _⟩ => ⟨S8192x2048, .f32⟩
  | .hbm, ⟨19, _⟩ => ⟨S10240x2048, .f32⟩
  | .hbm, ⟨20, _⟩ => ⟨S10240, .f32⟩
  | .hbm, ⟨21, _⟩ => ⟨S2048x10240, .f32⟩
  | .hbm, ⟨22, _⟩ => ⟨S8192x10240, .f32⟩
  | .hbm, ⟨23, _⟩ => ⟨S1x10240, .f32⟩
  | .hbm, ⟨24, _⟩ => ⟨S8192x10240, .f32⟩
  | .hbm, ⟨25, _⟩ => ⟨S8192x10240, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x4096, .f32⟩
  | .hbm, ⟨74, _⟩ => ⟨S_, .f32⟩
  | .hbm, ⟨75, _⟩ => ⟨S8192x4096, .f32⟩
  | .hbm, ⟨76, _⟩ => ⟨S8192x4096, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .i1⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S8192x4096, .f32⟩
  | .hbm, ⟨90, _⟩ => ⟨S8192x4096, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S8192x1024x4, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v48 : Ref sig .tc := ⟨.hbm, 90, rfl⟩
abbrev main_cst_10 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S1024x2048_S1024x2048_S4096x2048_S10240x2048_d0 : Shape.Concatenates [S1024x2048, S1024x2048, S1024x2048, S1024x2048, S1024x2048, S1024x2048, S4096x2048] S10240x2048 0
  concatenates_S1024_S1024_S1024_S1024_S1024_S1024_S4096_S10240_d0 : Shape.Concatenates [S1024, S1024, S1024, S1024, S1024, S1024, S4096] S10240 0
  transposes_S10240x2048_S2048x10240_1_0 : S10240x2048.Transposes [1, 0] S2048x10240
  bcast_S10240_S1x10240_1 : S10240.BroadcastsInDim S1x10240 (![1] : Fin 1 → Fin S1x10240.rank)
  bcast_S1x10240_S8192x10240_0_1 : S1x10240.BroadcastsInDim S8192x10240 (![0, 1] : Fin 2 → Fin S8192x10240.rank)
  slices_S8192x10240_S8192x1024_0_0 : S8192x10240.Slices ![0, 0] S8192x1024
  bcast_S_S8192x1024 : S_.BroadcastsInDim S8192x1024 (![] : Fin 0 → Fin S8192x1024.rank)
  slices_S8192x10240_S8192x1024_0_1024 : S8192x10240.Slices ![0, 1024] S8192x1024
  slices_S8192x10240_S8192x1024_0_2048 : S8192x10240.Slices ![0, 2048] S8192x1024
  slices_S8192x10240_S8192x1024_0_3072 : S8192x10240.Slices ![0, 3072] S8192x1024
  slices_S8192x10240_S8192x1024_0_4096 : S8192x10240.Slices ![0, 4096] S8192x1024
  slices_S8192x10240_S8192x1024_0_5120 : S8192x10240.Slices ![0, 5120] S8192x1024
  slices_S8192x10240_S8192x4096_0_6144 : S8192x10240.Slices ![0, 6144] S8192x4096
  bcast_S_S8192x4096 : S_.BroadcastsInDim S8192x4096 (![] : Fin 0 → Fin S8192x4096.rank)
  shapeCasts_S8192x4096_S8192x1024x4 : S8192x4096.ShapeCasts S8192x1024x4
  dot_S8192x2048_S2048x10240_S8192x10240_1_0_0_1_n_n_wf : DotDims.WF S8192x2048 S2048x10240 S8192x10240 [1] [0] [0] [1] [] []

variable [Facts₀]

def dot_S8192x2048_S2048x10240_S8192x10240_1_0_0_1_n_n : DotDims S8192x2048 S2048x10240 S8192x10240 where
  lhsContracting := [1]
  rhsContracting := [0]
  lhsNonContracting := [0]
  rhsNonContracting := [1]
  lhsBatch := []
  rhsBatch := []
  wf := dot_S8192x2048_S2048x10240_S8192x10240_1_0_0_1_n_n_wf

class Facts : Prop extends Facts₀ where

variable [Facts]
-- ==== Proof.Kernel.Body0.lean ====
/-
  The first kernel region (the six gates) taken alone: its frame half.

  At each of its 64 grid points the body loads a block of 128 rows of x, h and the two previous cell states, the
  whole transposed weight halves and the bias row, and stores three 128-row blocks: the two new cell states and
  the output gate.  Every access is of a whole staging buffer, so the body's effect on an output buffer is one
  whole-block store of a pure function of the loaded blocks.  This module states that function per output, runs
  the body symbolically to it, and packages the result as the pipeline's per-point obligation, for any contents
  `V` of the buffers at the region's entry.
-/
import proofs.«166638_j39719857553628_1_alg».proof.Proof.Gen.Kernel.Launch
import proofs.«166638_j39719857553628_1_alg».proof.Proof.Gen.Kernel.Skeleton
import proofs.«166638_j39719857553628_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, fixed where the regions are chained
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched
    the block index has not moved and the body left the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r_S128x1024 : Rect S128x1024 := Rect.unit (s := S128x1024) ![0, 0] S128x1024.size inb_S128x1024_S128x1024_0_0
abbrev r_S1024x6144 : Rect S1024x6144 := Rect.unit (s := S1024x6144) ![0, 0] S1024x6144.size inb_S1024x6144_S1024x6144_0_0
abbrev r_S1x6144 : Rect S1x6144 := Rect.unit (s := S1x6144) ![0, 0] S1x6144.size inb_S1x6144_S1x6144_0_0

/-! ## What the body leaves in each output window's buffer -/

/-- What the body leaves in window 7's buffer: its one store over the whole block, the stored value the body's
    arithmetic of the loaded input blocks. -/
def out0_7 (x0 : Vec F S128x1024 .f32) (x1 : Vec F S128x1024 .f32) (x4 : Vec F S1024x6144 .bf16) (x5 : Vec F S1024x6144 .bf16) (x6 : Vec F S1x6144 .f32) (x2 : Vec F S128x1024 .f32) : Vec F S128x1024 .f32 :=
  View.canon [⟨r_S128x1024, k0_pay4 (View.ld x0 r_S128x1024) (View.ld x1 r_S128x1024) (View.ld x4 r_S1024x6144) (View.ld x5 r_S1024x6144) (View.ld x6 r_S1x6144) (View.ld x2 r_S128x1024)⟩]

/-- What the body leaves in window 8's buffer: its one store over the whole block, the stored value the body's
    arithmetic of the loaded input blocks. -/
def out0_8 (x0 : Vec F S128x1024 .f32) (x1 : Vec F S128x1024 .f32) (x4 : Vec F S1024x6144 .bf16) (x5 : Vec F S1024x6144 .bf16) (x6 : Vec F S1x6144 .f32) (x3 : Vec F S128x1024 .f32) : Vec F S128x1024 .f32 :=
  View.canon [⟨r_S128x1024, k0_pay5 (View.ld x0 r_S128x1024) (View.ld x1 r_S128x1024) (View.ld x4 r_S1024x6144) (View.ld x5 r_S1024x6144) (View.ld x6 r_S1x6144) (View.ld x3 r_S128x1024)⟩]

/-- What the body leaves in window 9's buffer: its one store over the whole block, the stored value the body's
    arithmetic of the loaded input blocks. -/
def out0_9 (x0 : Vec F S128x1024 .f32) (x1 : Vec F S128x1024 .f32) (x4 : Vec F S1024x6144 .bf16) (x5 : Vec F S1024x6144 .bf16) (x6 : Vec F S1x6144 .f32) : Vec F S128x1024 .f32 :=
  View.canon [⟨r_S128x1024, k0_pay2 (View.ld x0 r_S128x1024) (View.ld x1 r_S128x1024) (View.ld x4 r_S1024x6144) (View.ld x5 r_S1024x6144) (View.ld x6 r_S1x6144)⟩]

/-- One store over the whole block covers the block. -/
theorem cover0 (p0 : Vec F S128x1024 .f32) (y : S128x1024.Idx) :
    ∃ pc ∈ ([⟨r_S128x1024, p0⟩] : List (View.Piece (Elt F) S128x1024 .f32)), y ∈ pc.1.set :=
  View.cover_of_tiled [⟨r_S128x1024, p0⟩] S128x1024.size (by rfl) y

/-! ## The body's triple -/

set_option maxHeartbeats 4000000 in
/-- On whole staging memrefs, the inputs' at contents `xW` and the outputs' at anything, the body runs to the
    continuation with the inputs' as they were and each output's at its stored value of the inputs. -/
theorem sound_kernel0 (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x6144 .bf16) (harg5 : arg5.IsWhole) (arg6 : Memref sig .tc .vmem S1024x6144 .bf16) (harg6 : arg6.IsWhole) (arg7 : Memref sig .tc .vmem S1x6144 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec F S128x1024 .f32) (x1 : Vec F S128x1024 .f32) (x2 : Vec F S128x1024 .f32) (x3 : Vec F S128x1024 .f32) (x4 : Vec F S1024x6144 .bf16) (x5 : Vec F S1024x6144 .bf16) (x6 : Vec F S1x6144 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4 x5 x6 x2) ∗ owns (c : Thread nD τ) arg9 fullShare (out0_8 x0 x1 x4 x5 x6 x3) ∗ owns (c : Thread nD τ) arg10 fullShare (out0_9 x0 x1 x4 x5 x6)) -∗ K ⟨⟩))
      ⊢ wp frame (wpE (defs₀ (F := F)) Variants.none c none) E (cc0__gates_kernel i arg1 harg1 arg2 harg2 arg3 harg3 arg4 harg4 arg5 harg5 arg6 harg6 arg7 harg7 arg8 harg8 arg9 harg9 arg10 harg10) K := by
  simp only [cc0__gates_kernel_eq_skeleton]; unfold cc0__gates_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The arrays as the region finds them; after the body at point `t` each input's buffer at its block and each
    output's at its stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t) (iblk0 V c 5 t) (iblk0 V c 6 t) (iblk0 V c 2 t)
    | ⟨8, _⟩ => out0_8 (iblk0 V c 0 t) (iblk0 V c 1 t) (iblk0 V c 4 t) (iblk0 V c 5 t) (iblk0 V c 6 t) (iblk0 V c 3 t)
    | ⟨9, _⟩ => out0_9 (iblk0 V c 0 t) (iblk0 V c 1 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) (iblk0 V c 5 t) (iblk0 V c 6 t) (iblk0 V c 2 t) := by dsimp only [dat0]
theorem after0_8 (c : Dev nD) (t : Fin cfg0.N) : (dat0 V c).after 8 t = out0_8 (iblk0 V c 0 t) (iblk0 V c 1 t) (iblk0 V c 4 t) (iblk0 V c 5 t) (iblk0 V c 6 t) (iblk0 V c 3 t) := by dsimp only [dat0]
theorem after0_9 (c : Dev nD) (t : Fin cfg0.N) : (dat0 V c).after 9 t = out0_9 (iblk0 V c 0 t) (iblk0 V c 1 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- At any point the inputs' memrefs hold their blocks, so the triple applies; the invariant and the core's dues pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body0

end
-- ==== Proof.Kernel.Body1.lean ====
/-
  The second kernel region (the decay rates) taken alone: its frame half.

  At each of its 32 grid points the body loads a block of 256 rows of x and h, the whole transposed decay weight
  halves and the bias row, and stores one 256 x 4096 block.  Every access is of a whole staging buffer, so the
  body's effect on the output buffer is one whole-block store of a pure function of the loaded blocks.  This
  module states that function, runs the body symbolically to it, and packages the result as the pipeline's
  per-point obligation, for any contents `V` of the buffers at the region's entry.
-/
import proofs.«166638_j39719857553628_1_alg».proof.Proof.Gen.Kernel.Launch
import proofs.«166638_j39719857553628_1_alg».proof.Proof.Gen.Kernel.Skeleton
import proofs.«166638_j39719857553628_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, fixed where the regions are chained
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not fetched
    the block index has not moved and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r_S256x1024 : Rect S256x1024 := Rect.unit (s := S256x1024) ![0, 0] S256x1024.size inb_S256x1024_S256x1024_0_0
abbrev r_S1024x4096 : Rect S1024x4096 := Rect.unit (s := S1024x4096) ![0, 0] S1024x4096.size inb_S1024x4096_S1024x4096_0_0
abbrev r_S1x4096 : Rect S1x4096 := Rect.unit (s := S1x4096) ![0, 0] S1x4096.size inb_S1x4096_S1x4096_0_0
abbrev r_S256x4096 : Rect S256x4096 := Rect.unit (s := S256x4096) ![0, 0] S256x4096.size inb_S256x4096_S256x4096_0_0

/-! ## What the body leaves in each output window's buffer -/

/-- What the body leaves in window 5's buffer: its one store over the whole block, the stored value the body's
    arithmetic of the loaded input blocks. -/
def out1_5 (x0 : Vec F S256x1024 .f32) (x1 : Vec F S256x1024 .f32) (x2 : Vec F S1024x4096 .bf16) (x3 : Vec F S1024x4096 .bf16) (x4 : Vec F S1x4096 .f32) : Vec F S256x4096 .f32 :=
  View.canon [⟨r_S256x4096, k1_pay1 (View.ld x0 r_S256x1024) (View.ld x1 r_S256x1024) (View.ld x2 r_S1024x4096) (View.ld x3 r_S1024x4096) (View.ld x4 r_S1x4096)⟩]

/-- One store over the whole block covers the block. -/
theorem cover1 (p0 : Vec F S256x4096 .f32) (y : S256x4096.Idx) :
    ∃ pc ∈ ([⟨r_S256x4096, p0⟩] : List (View.Piece (Elt F) S256x4096 .f32)), y ∈ pc.1.set :=
  View.cover_of_tiled [⟨r_S256x4096, p0⟩] S256x4096.size (by rfl) y

/-! ## The body's triple -/

set_option maxHeartbeats 4000000 in
/-- On whole staging memrefs, the inputs' at contents `xW` and the outputs' at anything, the body runs to the
    continuation with the inputs' as they were and each output's at its stored value of the inputs. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S256x4096 .f32) (harg6 : arg6.IsWhole)
    (x0 : Vec F S256x1024 .f32) (x1 : Vec F S256x1024 .f32) (x2 : Vec F S1024x4096 .bf16) (x3 : Vec F S1024x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__decay_kernel i arg1 harg1 arg2 harg2 arg3 harg3 arg4 harg4 arg5 harg5 arg6 harg6) K := by
  simp only [cc1__decay_kernel_eq_skeleton]; unfold cc1__decay_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The arrays as the region finds them; after the body at point `t` each input's buffer at its block and each
    output's at its stored value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- At any point the inputs' memrefs hold their blocks, so the triple applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body1

end
-- ==== Proof.Kernel.Run.lean ====
/-
  The whole program as a chain: sixteen host operations, the gates kernel, the decay kernel, one reshape.

  Between two items every unscoped buffer of the core is held at a known valuation: the launch contents, then
  what the host operations write, then the first kernel's three output arrays at what its write-backs leave, then
  the second kernel's output array likewise, then the reshape's result.  Each kernel region takes its arrays out
  of the held buffers, runs its pipeline on them and puts them back; nothing else moves.  Read against the final
  memory this gives every unscoped buffer's final contents: the arguments as launched (no item writes one), and the
  four results as functions of what the two pipelines write back.
-/
import proofs.«166638_j39719857553628_1_alg».proof.Proof.Kernel.Body0
import proofs.«166638_j39719857553628_1_alg».proof.Proof.Kernel.Body1
import proofs.«166638_j39719857553628_1_alg».proof.Proof.Gen.Kernel.Regions
import Idealize.ShloMosaic.Lib.StableHlo.Run

set_option maxRecDepth 16384

noncomputable section

namespace Cert.Kernel.Run

open Cert.Kernel.Body0 Cert.Kernel.Body1
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The buffers as the first kernel finds them: after the host operations. -/
abbrev E1 : (c : Dev nD) → (b : Ref sig .tc) → Buf (Elt F) ((c : Thread nD τ).loc b) := fun c b => V1 m c b

/-- What the first kernel leaves: its arrays at what its pipeline's write-backs make of them, the rest as found. -/
def o2 : Outs (F := F) := fun _ r c =>
  Pipeline.withArrays spec0 c (V1 m c) (fun w => (dat0 (E1 m) c).arrAt w cfg0.N) (Proc.devRef .tc r)

/-- The buffers as the second kernel finds them. -/
abbrev E2 : (c : Dev nD) → (b : Ref sig .tc) → Buf (Elt F) ((c : Thread nD τ).loc b) := fun c b => V2 m (o2 m) c b

/-- What each kernel leaves in the buffers it may change, at the positions the valuations read. -/
def outs : Outs (F := F) := fun n r c =>
  match n with
  | 2 => o2 m 2 r c
  | _ => Pipeline.withArrays spec1 c (V2 m (o2 m) c) (fun w => (dat1 (E2 m) c).arrAt w cfg1.N) (Proc.devRef .tc r)

theorem V2_outs (c : Dev nD) : V2 m (outs m) c = V2 m (o2 m) c := rfl

theorem outs2_arr (c : Dev nD) (w : Fin cfg0.W) :
    o2 m 2 (Pipeline.arrRef spec0 w) c = (dat0 (E1 m) c).arrAt w cfg0.N := by
  unfold o2
  exact Pipeline.withArrays_arr spec0 launch0.win.arr_inj c _ _ w

theorem outs3_arr (c : Dev nD) (w : Fin cfg1.W) :
    outs m 3 (Pipeline.arrRef spec1 w) c = (dat1 (E2 m) c).arrAt w cfg1.N := by
  show Pipeline.withArrays spec1 c (V2 m (o2 m) c) (fun w => (dat1 (E2 m) c).arrAt w cfg1.N) (Proc.devRef .tc (Pipeline.arrRef spec1 w)) = _
  exact Pipeline.withArrays_arr spec1 launch1.win.arr_inj c _ _ w

/-- After the first kernel its three output arrays hold what its pipeline wrote back. -/
theorem V2_v16_0 (c : Dev nD) : V2 m (o2 m) c main_v16_0 = (dat0 (E1 m) c).arrAt 7 cfg0.N :=
  (Function.update_of_ne (StableHlo.devRef_ne_of_ne (by decide : (main_v16_0 : Ref sig .tc) ≠ main_v16_2)) _ _).trans
    ((Function.update_of_ne (StableHlo.devRef_ne_of_ne (by decide : (main_v16_0 : Ref sig .tc) ≠ main_v16_1)) _ _).trans
      ((Function.update_self _ _ _).trans (outs2_arr m c 7)))
theorem V2_v16_1 (c : Dev nD) : V2 m (o2 m) c main_v16_1 = (dat0 (E1 m) c).arrAt 8 cfg0.N :=
  (Function.update_of_ne (StableHlo.devRef_ne_of_ne (by decide : (main_v16_1 : Ref sig .tc) ≠ main_v16_2)) _ _).trans
    ((Function.update_self _ _ _).trans (outs2_arr m c 8))
theorem V2_v16_2 (c : Dev nD) : V2 m (o2 m) c main_v16_2 = (dat0 (E1 m) c).arrAt 9 cfg0.N :=
  (Function.update_self _ _ _).trans (outs2_arr m c 9)
/-- After the second kernel its output array holds what its pipeline wrote back. -/
theorem V3_v17 (c : Dev nD) : V3 m (outs m) c main_v17 = (dat1 (E2 m) c).arrAt 5 cfg1.N :=
  (Function.update_self _ _ _).trans (outs3_arr m c 5)

/-- At the first kernel's exit each of its arrays holds what the pipeline leaves: an input what it held, an output
    its write-backs. -/
theorem hF0 (c : Dev nD) (w : Fin cfg0.W) : (dat0 (E1 m) c).arrAt w cfg0.N = V2 m (o2 m) c (Pipeline.arrRef spec0 w) := by
  match w with
  | ⟨0, _⟩ => exact (((dat0 (E1 m) c).arrAt_in 0 rfl _).trans (A_eq0 (E1 m) c 0)).trans (V2_of m (o2 m) c _ (by decide)).symm
  | ⟨1, _⟩ => exact (((dat0 (E1 m) c).arrAt_in 1 rfl _).trans (A_eq0 (E1 m) c 1)).trans (V2_of m (o2 m) c _ (by decide)).symm
  | ⟨2, _⟩ => exact (((dat0 (E1 m) c).arrAt_in 2 rfl _).trans (A_eq0 (E1 m) c 2)).trans (V2_of m (o2 m) c _ (by decide)).symm
  | ⟨3, _⟩ => exact (((dat0 (E1 m) c).arrAt_in 3 rfl _).trans (A_eq0 (E1 m) c 3)).trans (V2_of m (o2 m) c _ (by decide)).symm
  | ⟨4, _⟩ => exact (((dat0 (E1 m) c).arrAt_in 4 rfl _).trans (A_eq0 (E1 m) c 4)).trans (V2_of m (o2 m) c _ (by decide)).symm
  | ⟨5, _⟩ => exact (((dat0 (E1 m) c).arrAt_in 5 rfl _).trans (A_eq0 (E1 m) c 5)).trans (V2_of m (o2 m) c _ (by decide)).symm
  | ⟨6, _⟩ => exact (((dat0 (E1 m) c).arrAt_in 6 rfl _).trans (A_eq0 (E1 m) c 6)).trans (V2_of m (o2 m) c _ (by decide)).symm
  | ⟨7, _⟩ => exact (V2_v16_0 m c).symm
  | ⟨8, _⟩ => exact (V2_v16_1 m c).symm
  | ⟨9, _⟩ => exact (V2_v16_2 m c).symm

/-- and every other buffer what it held at entry. -/
theorem hrest0 (c : Dev nD) : ∀ b, b ∉ Finset.univ.image (Pipeline.arrRef spec0) → V2 m (o2 m) c b = V1 m c b :=
  fun b hb => V2_of m (o2 m) c b (by
    intro h
    rcases List.mem_cons.mp h with h | h
    · exact hb (Finset.mem_image.mpr ⟨7, Finset.mem_univ _, h.symm⟩)
    rcases List.mem_cons.mp h with h | h
    · exact hb (Finset.mem_image.mpr ⟨8, Finset.mem_univ _, h.symm⟩)
    rcases List.mem_cons.mp h with h | h
    · exact hb (Finset.mem_image.mpr ⟨9, Finset.mem_univ _, h.symm⟩)
    · exact absurd h (List.not_mem_nil))

theorem hF1 (c : Dev nD) (w : Fin cfg1.W) : (dat1 (E2 m) c).arrAt w cfg1.N = V3 m (outs m) c (Pipeline.arrRef spec1 w) := by
  match w with
  | ⟨0, _⟩ => exact (((dat1 (E2 m) c).arrAt_in 0 rfl _).trans (A_eq1 (E2 m) c 0)).trans (V3_of m (outs m) c _ (by decide)).symm
  | ⟨1, _⟩ => exact (((dat1 (E2 m) c).arrAt_in 1 rfl _).trans (A_eq1 (E2 m) c 1)).trans (V3_of m (outs m) c _ (by decide)).symm
  | ⟨2, _⟩ => exact (((dat1 (E2 m) c).arrAt_in 2 rfl _).trans (A_eq1 (E2 m) c 2)).trans (V3_of m (outs m) c _ (by decide)).symm
  | ⟨3, _⟩ => exact (((dat1 (E2 m) c).arrAt_in 3 rfl _).trans (A_eq1 (E2 m) c 3)).trans (V3_of m (outs m) c _ (by decide)).symm
  | ⟨4, _⟩ => exact (((dat1 (E2 m) c).arrAt_in 4 rfl _).trans (A_eq1 (E2 m) c 4)).trans (V3_of m (outs m) c _ (by decide)).symm
  | ⟨5, _⟩ => exact (V3_v17 m c).symm

theorem hrest1 (c : Dev nD) : ∀ b, b ∉ Finset.univ.image (Pipeline.arrRef spec1) → V3 m (outs m) c b = V2 m (outs m) c b :=
  fun b hb => V3_of m (outs m) c b (by
    intro h
    rcases List.mem_cons.mp h with h | h
    · exact hb (Finset.mem_image.mpr ⟨5, Finset.mem_univ _, h.symm⟩)
    · exact absurd h (List.not_mem_nil))

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)

/-- What rides beside the buffers ends owing nothing. -/
theorem R_owes (c : Dev nD) : (R c : sProp 𝕄) ⊢ iprop(∃ W, owes (c : Thread nD τ) (0 : CellTallies nD τ sig Unit) W) := by
  iintro ⟨-, HO⟩
  iexact HO

/-! ## The kernels as items -/

set_option backward.isDefEq.respectTransparency.types false in
/-- The first kernel, entered with every unscoped buffer at the contents after the host operations and left with them at
    the contents with its three outputs written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (o2 m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel, entered with every unscoped buffer at the first kernel's exit contents and left with them at the
    contents with its output written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (o2 m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and in
    the final memory every unscoped buffer of every core holds the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Pipeline.Seg.run_eq_chain,
        show (segs m (outs m) 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨Hh, HSI⟩
      unfold StableHlo.held
      imodintro
      iapply (pointsTo_read_all (Pipeline.ucRefs τ sig) (fun b => (((c : Thread nD τ)).1, b)) (V4 m (outs m) c) s')
      isplitl [Hh] <;> iassumption)
    (hQ := fun _ h => h)

/-! ## The frame and the results -/

/-- Every argument array ends as launched: no host operation writes one and no kernel may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c),
     (h c _ (mem_uc main_arg12 (by decide))).trans (V4_main_arg12 m (outs m) c),
     (h c _ (mem_uc main_arg13 (by decide))).trans (V4_main_arg13 m (outs m) c),
     (h c _ (mem_uc main_arg14 (by decide))).trans (V4_main_arg14 m (outs m) c),
     (h c _ (mem_uc main_arg15 (by decide))).trans (V4_main_arg15 m (outs m) c),
     (h c _ (mem_uc main_arg16 (by decide))).trans (V4_main_arg16 m (outs m) c),
     (h c _ (mem_uc main_arg17 (by decide))).trans (V4_main_arg17 m (outs m) c)⟩)
    (run_all m ρ)

/-- The last valuation at the four result buffers: the first kernel's three outputs as its pipeline left them, and the
    second kernel's output, as its pipeline left it, read as a 8192 x 1024 x 4 array. -/
theorem V4_v16_0 (c : Dev nD) : V4 m (outs m) c main_v16_0 = (dat0 (E1 m) c).arrAt 7 cfg0.N :=
  (V4_of m (outs m) c main_v16_0 (by decide)).trans ((V3_of m (outs m) c main_v16_0 (by decide)).trans ((congrFun (V2_outs m c) _).trans (V2_v16_0 m c)))
theorem V4_v16_1 (c : Dev nD) : V4 m (outs m) c main_v16_1 = (dat0 (E1 m) c).arrAt 8 cfg0.N :=
  (V4_of m (outs m) c main_v16_1 (by decide)).trans ((V3_of m (outs m) c main_v16_1 (by decide)).trans ((congrFun (V2_outs m c) _).trans (V2_v16_1 m c)))
theorem V4_v16_2 (c : Dev nD) : V4 m (outs m) c main_v16_2 = (dat0 (E1 m) c).arrAt 9 cfg0.N :=
  (V4_of m (outs m) c main_v16_2 (by decide)).trans ((V3_of m (outs m) c main_v16_2 (by decide)).trans ((congrFun (V2_outs m c) _).trans (V2_v16_2 m c)))
theorem V4_v18 (c : Dev nD) :
    V4 m (outs m) c main_v18 = shapeCast S8192x1024x4 ((dat1 (E2 m) c).arrAt 5 cfg1.N) shapeCasts_S8192x4096_S8192x1024x4 := by
  rw [← V3_v17 m c]
  show StableHlo.after hostOps2 (V3 m (outs m) c) (Proc.devRef .tc main_v18) = _
  after_results
  rfl

/-- The run with the four results named and the arguments unchanged. -/
theorem run_results (ρ : Dev nD → PrngReg) :
    θ_run defs (onTc (τ := τ) (main (F := F))) ⟨m, fun _ => 0, ρ⟩ (fun r => ∀ c : Dev nD,
      r.2.mem ((c.tc : Thread nD τ).loc main_v16_0) = (dat0 (E1 m) c).arrAt 7 cfg0.N
      ∧ r.2.mem ((c.tc : Thread nD τ).loc main_v16_1) = (dat0 (E1 m) c).arrAt 8 cfg0.N
      ∧ r.2.mem ((c.tc : Thread nD τ).loc main_v18) = shapeCast S8192x1024x4 ((dat1 (E2 m) c).arrAt 5 cfg1.N) shapeCasts_S8192x4096_S8192x1024x4
      ∧ r.2.mem ((c.tc : Thread nD τ).loc main_v16_2) = (dat0 (E1 m) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v16_0 (by decide))).trans (V4_v16_0 m c),
     (h c _ (mem_uc main_v16_1 (by decide))).trans (V4_v16_1 m c),
     (h c _ (mem_uc main_v18 (by decide))).trans (V4_v18 m c),
     (h c _ (mem_uc main_v16_2 (by decide))).trans (V4_v16_2 m c),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c),
     (h c _ (mem_uc main_arg12 (by decide))).trans (V4_main_arg12 m (outs m) c),
     (h c _ (mem_uc main_arg13 (by decide))).trans (V4_main_arg13 m (outs m) c),
     (h c _ (mem_uc main_arg14 (by decide))).trans (V4_main_arg14 m (outs m) c),
     (h c _ (mem_uc main_arg15 (by decide))).trans (V4_main_arg15 m (outs m) c),
     (h c _ (mem_uc main_arg16 (by decide))).trans (V4_main_arg16 m (outs m) c),
     (h c _ (mem_uc main_arg17 (by decide))).trans (V4_main_arg17 m (outs m) c)⟩)
    (run_all m ρ)

end Cert.Kernel.Run

end
-- ==== Proof.KernelIdeal.Body0.lean ====
/-
  The first kernel region (the six gates) taken alone: its frame half.

  At each of its 64 grid points the body loads a block of 128 rows of x, h and the two previous cell states, the
  whole transposed weight halves and the bias row, and stores three 128-row blocks: the two new cell states and
  the output gate.  Every access is of a whole staging buffer, so the body's effect on an output buffer is one
  whole-block store of a pure function of the loaded blocks.  This module states that function per output, runs
  the body symbolically to it, and packages the result as the pipeline's per-point obligation, for any contents
  `V` of the buffers at the region's entry.
-/
import proofs.«166638_j39719857553628_1_alg».proof.Proof.Gen.KernelIdeal.Launch
import proofs.«166638_j39719857553628_1_alg».proof.Proof.Gen.KernelIdeal.Skeleton
import proofs.«166638_j39719857553628_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, fixed where the regions are chained
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched
    the block index has not moved and the body left the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r_S128x1024 : Rect S128x1024 := Rect.unit (s := S128x1024) ![0, 0] S128x1024.size inb_S128x1024_S128x1024_0_0
abbrev r_S1024x6144 : Rect S1024x6144 := Rect.unit (s := S1024x6144) ![0, 0] S1024x6144.size inb_S1024x6144_S1024x6144_0_0
abbrev r_S1x6144 : Rect S1x6144 := Rect.unit (s := S1x6144) ![0, 0] S1x6144.size inb_S1x6144_S1x6144_0_0

/-! ## What the body leaves in each output window's buffer -/

/-- What the body leaves in window 7's buffer: its one store over the whole block, the stored value the body's
    arithmetic of the loaded input blocks. -/
def out0_7 (x0 : Vec F S128x1024 .f32) (x1 : Vec F S128x1024 .f32) (x4 : Vec F S1024x6144 .bf16) (x5 : Vec F S1024x6144 .bf16) (x6 : Vec F S1x6144 .f32) (x2 : Vec F S128x1024 .f32) : Vec F S128x1024 .f32 :=
  View.canon [⟨r_S128x1024, k0_pay4 (View.ld x0 r_S128x1024) (View.ld x1 r_S128x1024) (View.ld x4 r_S1024x6144) (View.ld x5 r_S1024x6144) (View.ld x6 r_S1x6144) (View.ld x2 r_S128x1024)⟩]

/-- What the body leaves in window 8's buffer: its one store over the whole block, the stored value the body's
    arithmetic of the loaded input blocks. -/
def out0_8 (x0 : Vec F S128x1024 .f32) (x1 : Vec F S128x1024 .f32) (x4 : Vec F S1024x6144 .bf16) (x5 : Vec F S1024x6144 .bf16) (x6 : Vec F S1x6144 .f32) (x3 : Vec F S128x1024 .f32) : Vec F S128x1024 .f32 :=
  View.canon [⟨r_S128x1024, k0_pay5 (View.ld x0 r_S128x1024) (View.ld x1 r_S128x1024) (View.ld x4 r_S1024x6144) (View.ld x5 r_S1024x6144) (View.ld x6 r_S1x6144) (View.ld x3 r_S128x1024)⟩]

/-- What the body leaves in window 9's buffer: its one store over the whole block, the stored value the body's
    arithmetic of the loaded input blocks. -/
def out0_9 (x0 : Vec F S128x1024 .f32) (x1 : Vec F S128x1024 .f32) (x4 : Vec F S1024x6144 .bf16) (x5 : Vec F S1024x6144 .bf16) (x6 : Vec F S1x6144 .f32) : Vec F S128x1024 .f32 :=
  View.canon [⟨r_S128x1024, k0_pay2 (View.ld x0 r_S128x1024) (View.ld x1 r_S128x1024) (View.ld x4 r_S1024x6144) (View.ld x5 r_S1024x6144) (View.ld x6 r_S1x6144)⟩]

/-- One store over the whole block covers the block. -/
theorem cover0 (p0 : Vec F S128x1024 .f32) (y : S128x1024.Idx) :
    ∃ pc ∈ ([⟨r_S128x1024, p0⟩] : List (View.Piece (Elt F) S128x1024 .f32)), y ∈ pc.1.set :=
  View.cover_of_tiled [⟨r_S128x1024, p0⟩] S128x1024.size (by rfl) y

/-! ## The body's triple -/

set_option maxHeartbeats 4000000 in
/-- On whole staging memrefs, the inputs' at contents `xW` and the outputs' at anything, the body runs to the
    continuation with the inputs' as they were and each output's at its stored value of the inputs. -/
theorem sound_kernel0 (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x6144 .bf16) (harg5 : arg5.IsWhole) (arg6 : Memref sig .tc .vmem S1024x6144 .bf16) (harg6 : arg6.IsWhole) (arg7 : Memref sig .tc .vmem S1x6144 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec F S128x1024 .f32) (x1 : Vec F S128x1024 .f32) (x2 : Vec F S128x1024 .f32) (x3 : Vec F S128x1024 .f32) (x4 : Vec F S1024x6144 .bf16) (x5 : Vec F S1024x6144 .bf16) (x6 : Vec F S1x6144 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4 x5 x6 x2) ∗ owns (c : Thread nD τ) arg9 fullShare (out0_8 x0 x1 x4 x5 x6 x3) ∗ owns (c : Thread nD τ) arg10 fullShare (out0_9 x0 x1 x4 x5 x6)) -∗ K ⟨⟩))
      ⊢ wp frame (wpE (defs₀ (F := F)) Variants.none c none) E (cc0__gates_kernel i arg1 harg1 arg2 harg2 arg3 harg3 arg4 harg4 arg5 harg5 arg6 harg6 arg7 harg7 arg8 harg8 arg9 harg9 arg10 harg10) K := by
  simp only [cc0__gates_kernel_eq_skeleton]; unfold cc0__gates_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The arrays as the region finds them; after the body at point `t` each input's buffer at its block and each
    output's at its stored value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t) (iblk0 V c 5 t) (iblk0 V c 6 t) (iblk0 V c 2 t)
    | ⟨8, _⟩ => out0_8 (iblk0 V c 0 t) (iblk0 V c 1 t) (iblk0 V c 4 t) (iblk0 V c 5 t) (iblk0 V c 6 t) (iblk0 V c 3 t)
    | ⟨9, _⟩ => out0_9 (iblk0 V c 0 t) (iblk0 V c 1 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) (iblk0 V c 5 t) (iblk0 V c 6 t) (iblk0 V c 2 t) := by dsimp only [dat0]
theorem after0_8 (c : Dev nD) (t : Fin cfg0.N) : (dat0 V c).after 8 t = out0_8 (iblk0 V c 0 t) (iblk0 V c 1 t) (iblk0 V c 4 t) (iblk0 V c 5 t) (iblk0 V c 6 t) (iblk0 V c 3 t) := by dsimp only [dat0]
theorem after0_9 (c : Dev nD) (t : Fin cfg0.N) : (dat0 V c).after 9 t = out0_9 (iblk0 V c 0 t) (iblk0 V c 1 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- At any point the inputs' memrefs hold their blocks, so the triple applies; the invariant and the core's dues pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body0

end
-- ==== Proof.KernelIdeal.Body1.lean ====
/-
  The second kernel region (the decay rates) taken alone: its frame half.

  At each of its 32 grid points the body loads a block of 256 rows of x and h, the whole transposed decay weight
  halves and the bias row, and stores one 256 x 4096 block.  Every access is of a whole staging buffer, so the
  body's effect on the output buffer is one whole-block store of a pure function of the loaded blocks.  This
  module states that function, runs the body symbolically to it, and packages the result as the pipeline's
  per-point obligation, for any contents `V` of the buffers at the region's entry.
-/
import proofs.«166638_j39719857553628_1_alg».proof.Proof.Gen.KernelIdeal.Launch
import proofs.«166638_j39719857553628_1_alg».proof.Proof.Gen.KernelIdeal.Skeleton
import proofs.«166638_j39719857553628_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, fixed where the regions are chained
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not fetched
    the block index has not moved and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r_S256x1024 : Rect S256x1024 := Rect.unit (s := S256x1024) ![0, 0] S256x1024.size inb_S256x1024_S256x1024_0_0
abbrev r_S1024x4096 : Rect S1024x4096 := Rect.unit (s := S1024x4096) ![0, 0] S1024x4096.size inb_S1024x4096_S1024x4096_0_0
abbrev r_S1x4096 : Rect S1x4096 := Rect.unit (s := S1x4096) ![0, 0] S1x4096.size inb_S1x4096_S1x4096_0_0
abbrev r_S256x4096 : Rect S256x4096 := Rect.unit (s := S256x4096) ![0, 0] S256x4096.size inb_S256x4096_S256x4096_0_0

/-! ## What the body leaves in each output window's buffer -/

/-- What the body leaves in window 5's buffer: its one store over the whole block, the stored value the body's
    arithmetic of the loaded input blocks. -/
def out1_5 (x0 : Vec F S256x1024 .f32) (x1 : Vec F S256x1024 .f32) (x2 : Vec F S1024x4096 .bf16) (x3 : Vec F S1024x4096 .bf16) (x4 : Vec F S1x4096 .f32) : Vec F S256x4096 .f32 :=
  View.canon [⟨r_S256x4096, k1_pay1 (View.ld x0 r_S256x1024) (View.ld x1 r_S256x1024) (View.ld x2 r_S1024x4096) (View.ld x3 r_S1024x4096) (View.ld x4 r_S1x4096)⟩]

/-- One store over the whole block covers the block. -/
theorem cover1 (p0 : Vec F S256x4096 .f32) (y : S256x4096.Idx) :
    ∃ pc ∈ ([⟨r_S256x4096, p0⟩] : List (View.Piece (Elt F) S256x4096 .f32)), y ∈ pc.1.set :=
  View.cover_of_tiled [⟨r_S256x4096, p0⟩] S256x4096.size (by rfl) y

/-! ## The body's triple -/

set_option maxHeartbeats 4000000 in
/-- On whole staging memrefs, the inputs' at contents `xW` and the outputs' at anything, the body runs to the
    continuation with the inputs' as they were and each output's at its stored value of the inputs. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S256x4096 .f32) (harg6 : arg6.IsWhole)
    (x0 : Vec F S256x1024 .f32) (x1 : Vec F S256x1024 .f32) (x2 : Vec F S1024x4096 .bf16) (x3 : Vec F S1024x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__decay_kernel i arg1 harg1 arg2 harg2 arg3 harg3 arg4 harg4 arg5 harg5 arg6 harg6) K := by
  simp only [cc1__decay_kernel_eq_skeleton]; unfold cc1__decay_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The arrays as the region finds them; after the body at point `t` each input's buffer at its block and each
    output's at its stored value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- At any point the inputs' memrefs hold their blocks, so the triple applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body1

end
-- ==== Proof.KernelIdeal.Run.lean ====
/-
  The whole program as a chain: sixteen host operations, the gates kernel, the decay kernel, one reshape.

  Between two items every unscoped buffer of the core is held at a known valuation: the launch contents, then
  what the host operations write, then the first kernel's three output arrays at what its write-backs leave, then
  the second kernel's output array likewise, then the reshape's result.  Each kernel region takes its arrays out
  of the held buffers, runs its pipeline on them and puts them back; nothing else moves.  Read against the final
  memory this gives every unscoped buffer's final contents: the arguments as launched (no item writes one), and the
  four results as functions of what the two pipelines write back.
-/
import proofs.«166638_j39719857553628_1_alg».proof.Proof.KernelIdeal.Body0
import proofs.«166638_j39719857553628_1_alg».proof.Proof.KernelIdeal.Body1
import proofs.«166638_j39719857553628_1_alg».proof.Proof.Gen.KernelIdeal.Regions
import Idealize.ShloMosaic.Lib.StableHlo.Run

set_option maxRecDepth 16384

noncomputable section

namespace Cert.KernelIdeal.Run

open Cert.KernelIdeal.Body0 Cert.KernelIdeal.Body1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The buffers as the first kernel finds them: after the host operations. -/
abbrev E1 : (c : Dev nD) → (b : Ref sig .tc) → Buf (Elt F) ((c : Thread nD τ).loc b) := fun c b => V1 m c b

/-- What the first kernel leaves: its arrays at what its pipeline's write-backs make of them, the rest as found. -/
def o2 : Outs (F := F) := fun _ r c =>
  Pipeline.withArrays spec0 c (V1 m c) (fun w => (dat0 (E1 m) c).arrAt w cfg0.N) (Proc.devRef .tc r)

/-- The buffers as the second kernel finds them. -/
abbrev E2 : (c : Dev nD) → (b : Ref sig .tc) → Buf (Elt F) ((c : Thread nD τ).loc b) := fun c b => V2 m (o2 m) c b

/-- What each kernel leaves in the buffers it may change, at the positions the valuations read. -/
def outs : Outs (F := F) := fun n r c =>
  match n with
  | 2 => o2 m 2 r c
  | _ => Pipeline.withArrays spec1 c (V2 m (o2 m) c) (fun w => (dat1 (E2 m) c).arrAt w cfg1.N) (Proc.devRef .tc r)

theorem V2_outs (c : Dev nD) : V2 m (outs m) c = V2 m (o2 m) c := rfl

theorem outs2_arr (c : Dev nD) (w : Fin cfg0.W) :
    o2 m 2 (Pipeline.arrRef spec0 w) c = (dat0 (E1 m) c).arrAt w cfg0.N := by
  unfold o2
  exact Pipeline.withArrays_arr spec0 launch0.win.arr_inj c _ _ w

theorem outs3_arr (c : Dev nD) (w : Fin cfg1.W) :
    outs m 3 (Pipeline.arrRef spec1 w) c = (dat1 (E2 m) c).arrAt w cfg1.N := by
  show Pipeline.withArrays spec1 c (V2 m (o2 m) c) (fun w => (dat1 (E2 m) c).arrAt w cfg1.N) (Proc.devRef .tc (Pipeline.arrRef spec1 w)) = _
  exact Pipeline.withArrays_arr spec1 launch1.win.arr_inj c _ _ w

/-- After the first kernel its three output arrays hold what its pipeline wrote back. -/
theorem V2_v16_0 (c : Dev nD) : V2 m (o2 m) c main_v16_0 = (dat0 (E1 m) c).arrAt 7 cfg0.N :=
  (Function.update_of_ne (StableHlo.devRef_ne_of_ne (by decide : (main_v16_0 : Ref sig .tc) ≠ main_v16_2)) _ _).trans
    ((Function.update_of_ne (StableHlo.devRef_ne_of_ne (by decide : (main_v16_0 : Ref sig .tc) ≠ main_v16_1)) _ _).trans
      ((Function.update_self _ _ _).trans (outs2_arr m c 7)))
theorem V2_v16_1 (c : Dev nD) : V2 m (o2 m) c main_v16_1 = (dat0 (E1 m) c).arrAt 8 cfg0.N :=
  (Function.update_of_ne (StableHlo.devRef_ne_of_ne (by decide : (main_v16_1 : Ref sig .tc) ≠ main_v16_2)) _ _).trans
    ((Function.update_self _ _ _).trans (outs2_arr m c 8))
theorem V2_v16_2 (c : Dev nD) : V2 m (o2 m) c main_v16_2 = (dat0 (E1 m) c).arrAt 9 cfg0.N :=
  (Function.update_self _ _ _).trans (outs2_arr m c 9)
/-- After the second kernel its output array holds what its pipeline wrote back. -/
theorem V3_v17 (c : Dev nD) : V3 m (outs m) c main_v17 = (dat1 (E2 m) c).arrAt 5 cfg1.N :=
  (Function.update_self _ _ _).trans (outs3_arr m c 5)

/-- At the first kernel's exit each of its arrays holds what the pipeline leaves: an input what it held, an output
    its write-backs. -/
theorem hF0 (c : Dev nD) (w : Fin cfg0.W) : (dat0 (E1 m) c).arrAt w cfg0.N = V2 m (o2 m) c (Pipeline.arrRef spec0 w) := by
  match w with
  | ⟨0, _⟩ => exact (((dat0 (E1 m) c).arrAt_in 0 rfl _).trans (A_eq0 (E1 m) c 0)).trans (V2_of m (o2 m) c _ (by decide)).symm
  | ⟨1, _⟩ => exact (((dat0 (E1 m) c).arrAt_in 1 rfl _).trans (A_eq0 (E1 m) c 1)).trans (V2_of m (o2 m) c _ (by decide)).symm
  | ⟨2, _⟩ => exact (((dat0 (E1 m) c).arrAt_in 2 rfl _).trans (A_eq0 (E1 m) c 2)).trans (V2_of m (o2 m) c _ (by decide)).symm
  | ⟨3, _⟩ => exact (((dat0 (E1 m) c).arrAt_in 3 rfl _).trans (A_eq0 (E1 m) c 3)).trans (V2_of m (o2 m) c _ (by decide)).symm
  | ⟨4, _⟩ => exact (((dat0 (E1 m) c).arrAt_in 4 rfl _).trans (A_eq0 (E1 m) c 4)).trans (V2_of m (o2 m) c _ (by decide)).symm
  | ⟨5, _⟩ => exact (((dat0 (E1 m) c).arrAt_in 5 rfl _).trans (A_eq0 (E1 m) c 5)).trans (V2_of m (o2 m) c _ (by decide)).symm
  | ⟨6, _⟩ => exact (((dat0 (E1 m) c).arrAt_in 6 rfl _).trans (A_eq0 (E1 m) c 6)).trans (V2_of m (o2 m) c _ (by decide)).symm
  | ⟨7, _⟩ => exact (V2_v16_0 m c).symm
  | ⟨8, _⟩ => exact (V2_v16_1 m c).symm
  | ⟨9, _⟩ => exact (V2_v16_2 m c).symm

/-- and every other buffer what it held at entry. -/
theorem hrest0 (c : Dev nD) : ∀ b, b ∉ Finset.univ.image (Pipeline.arrRef spec0) → V2 m (o2 m) c b = V1 m c b :=
  fun b hb => V2_of m (o2 m) c b (by
    intro h
    rcases List.mem_cons.mp h with h | h
    · exact hb (Finset.mem_image.mpr ⟨7, Finset.mem_univ _, h.symm⟩)
    rcases List.mem_cons.mp h with h | h
    · exact hb (Finset.mem_image.mpr ⟨8, Finset.mem_univ _, h.symm⟩)
    rcases List.mem_cons.mp h with h | h
    · exact hb (Finset.mem_image.mpr ⟨9, Finset.mem_univ _, h.symm⟩)
    · exact absurd h (List.not_mem_nil))

theorem hF1 (c : Dev nD) (w : Fin cfg1.W) : (dat1 (E2 m) c).arrAt w cfg1.N = V3 m (outs m) c (Pipeline.arrRef spec1 w) := by
  match w with
  | ⟨0, _⟩ => exact (((dat1 (E2 m) c).arrAt_in 0 rfl _).trans (A_eq1 (E2 m) c 0)).trans (V3_of m (outs m) c _ (by decide)).symm
  | ⟨1, _⟩ => exact (((dat1 (E2 m) c).arrAt_in 1 rfl _).trans (A_eq1 (E2 m) c 1)).trans (V3_of m (outs m) c _ (by decide)).symm
  | ⟨2, _⟩ => exact (((dat1 (E2 m) c).arrAt_in 2 rfl _).trans (A_eq1 (E2 m) c 2)).trans (V3_of m (outs m) c _ (by decide)).symm
  | ⟨3, _⟩ => exact (((dat1 (E2 m) c).arrAt_in 3 rfl _).trans (A_eq1 (E2 m) c 3)).trans (V3_of m (outs m) c _ (by decide)).symm
  | ⟨4, _⟩ => exact (((dat1 (E2 m) c).arrAt_in 4 rfl _).trans (A_eq1 (E2 m) c 4)).trans (V3_of m (outs m) c _ (by decide)).symm
  | ⟨5, _⟩ => exact (V3_v17 m c).symm

theorem hrest1 (c : Dev nD) : ∀ b, b ∉ Finset.univ.image (Pipeline.arrRef spec1) → V3 m (outs m) c b = V2 m (outs m) c b :=
  fun b hb => V3_of m (outs m) c b (by
    intro h
    rcases List.mem_cons.mp h with h | h
    · exact hb (Finset.mem_image.mpr ⟨5, Finset.mem_univ _, h.symm⟩)
    · exact absurd h (List.not_mem_nil))

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)

/-- What rides beside the buffers ends owing nothing. -/
theorem R_owes (c : Dev nD) : (R c : sProp 𝕄) ⊢ iprop(∃ W, owes (c : Thread nD τ) (0 : CellTallies nD τ sig Unit) W) := by
  iintro ⟨-, HO⟩
  iexact HO

/-! ## The kernels as items -/

set_option backward.isDefEq.respectTransparency.types false in
/-- The first kernel, entered with every unscoped buffer at the contents after the host operations and left with them at
    the contents with its three outputs written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (o2 m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel, entered with every unscoped buffer at the first kernel's exit contents and left with them at the
    contents with its output written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (o2 m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and in
    the final memory every unscoped buffer of every core holds the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Pipeline.Seg.run_eq_chain,
        show (segs m (outs m) 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨Hh, HSI⟩
      unfold StableHlo.held
      imodintro
      iapply (pointsTo_read_all (Pipeline.ucRefs τ sig) (fun b => (((c : Thread nD τ)).1, b)) (V4 m (outs m) c) s')
      isplitl [Hh] <;> iassumption)
    (hQ := fun _ h => h)

/-! ## The frame and the results -/

/-- Every argument array ends as launched: no host operation writes one and no kernel may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c),
     (h c _ (mem_uc main_arg12 (by decide))).trans (V4_main_arg12 m (outs m) c),
     (h c _ (mem_uc main_arg13 (by decide))).trans (V4_main_arg13 m (outs m) c),
     (h c _ (mem_uc main_arg14 (by decide))).trans (V4_main_arg14 m (outs m) c),
     (h c _ (mem_uc main_arg15 (by decide))).trans (V4_main_arg15 m (outs m) c),
     (h c _ (mem_uc main_arg16 (by decide))).trans (V4_main_arg16 m (outs m) c),
     (h c _ (mem_uc main_arg17 (by decide))).trans (V4_main_arg17 m (outs m) c)⟩)
    (run_all m ρ)

/-- The last valuation at the four result buffers: the first kernel's three outputs as its pipeline left them, and the
    second kernel's output, as its pipeline left it, read as a 8192 x 1024 x 4 array. -/
theorem V4_v16_0 (c : Dev nD) : V4 m (outs m) c main_v16_0 = (dat0 (E1 m) c).arrAt 7 cfg0.N :=
  (V4_of m (outs m) c main_v16_0 (by decide)).trans ((V3_of m (outs m) c main_v16_0 (by decide)).trans ((congrFun (V2_outs m c) _).trans (V2_v16_0 m c)))
theorem V4_v16_1 (c : Dev nD) : V4 m (outs m) c main_v16_1 = (dat0 (E1 m) c).arrAt 8 cfg0.N :=
  (V4_of m (outs m) c main_v16_1 (by decide)).trans ((V3_of m (outs m) c main_v16_1 (by decide)).trans ((congrFun (V2_outs m c) _).trans (V2_v16_1 m c)))
theorem V4_v16_2 (c : Dev nD) : V4 m (outs m) c main_v16_2 = (dat0 (E1 m) c).arrAt 9 cfg0.N :=
  (V4_of m (outs m) c main_v16_2 (by decide)).trans ((V3_of m (outs m) c main_v16_2 (by decide)).trans ((congrFun (V2_outs m c) _).trans (V2_v16_2 m c)))
theorem V4_v18 (c : Dev nD) :
    V4 m (outs m) c main_v18 = shapeCast S8192x1024x4 ((dat1 (E2 m) c).arrAt 5 cfg1.N) shapeCasts_S8192x4096_S8192x1024x4 := by
  rw [← V3_v17 m c]
  show StableHlo.after hostOps2 (V3 m (outs m) c) (Proc.devRef .tc main_v18) = _
  after_results
  rfl

/-- The run with the four results named and the arguments unchanged. -/
theorem run_results (ρ : Dev nD → PrngReg) :
    θ_run defs (onTc (τ := τ) (main (F := F))) ⟨m, fun _ => 0, ρ⟩ (fun r => ∀ c : Dev nD,
      r.2.mem ((c.tc : Thread nD τ).loc main_v16_0) = (dat0 (E1 m) c).arrAt 7 cfg0.N
      ∧ r.2.mem ((c.tc : Thread nD τ).loc main_v16_1) = (dat0 (E1 m) c).arrAt 8 cfg0.N
      ∧ r.2.mem ((c.tc : Thread nD τ).loc main_v18) = shapeCast S8192x1024x4 ((dat1 (E2 m) c).arrAt 5 cfg1.N) shapeCasts_S8192x4096_S8192x1024x4
      ∧ r.2.mem ((c.tc : Thread nD τ).loc main_v16_2) = (dat0 (E1 m) c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v16_0 (by decide))).trans (V4_v16_0 m c),
     (h c _ (mem_uc main_v16_1 (by decide))).trans (V4_v16_1 m c),
     (h c _ (mem_uc main_v18 (by decide))).trans (V4_v18 m c),
     (h c _ (mem_uc main_v16_2 (by decide))).trans (V4_v16_2 m c),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c),
     (h c _ (mem_uc main_arg12 (by decide))).trans (V4_main_arg12 m (outs m) c),
     (h c _ (mem_uc main_arg13 (by decide))).trans (V4_main_arg13 m (outs m) c),
     (h c _ (mem_uc main_arg14 (by decide))).trans (V4_main_arg14 m (outs m) c),
     (h c _ (mem_uc main_arg15 (by decide))).trans (V4_main_arg15 m (outs m) c),
     (h c _ (mem_uc main_arg16 (by decide))).trans (V4_main_arg16 m (outs m) c),
     (h c _ (mem_uc main_arg17 (by decide))).trans (V4_main_arg17 m (outs m) c)⟩)
    (run_all m ρ)

end Cert.KernelIdeal.Run

end
-- ==== Proof.Spec.lean ====
/-
  What the cell computes, as plain functions on the extended reals, index by index.

  One output unit's pre-activation is an affine form of a row of x and a row of h:
  the row of x against the first 1024 entries of the unit's weight row, the row of h
  against the last 1024, plus the unit's bias.  The two cell states are
  sigmoid(forget) * previous + sigmoid(input) * tanh(candidate); the output gate is a
  sigmoid; a decay rate is the softplus of its pre-activation, written the way both
  programs compute it: max(y, 0) + log(1 + exp(-|y - 0|)) with y scaled by the
  literal 1.0 before and divided by the literal 1.0 after.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals of two axes. -/
abbrev Mat (a b : Nat) : Type := (⟨2, ![a, b]⟩ : Shape).Idx → EReal
/-- An array of extended reals of one axis. -/
abbrev Arr (a : Nat) : Type := (⟨1, ![a]⟩ : Shape).Idx → EReal

/-- The word of 1.0 denotes the real one. -/
theorem one_f32 : Ideal.ofBits .f32 0x3F800000#32 = 1 := by
  simp [Ideal.ofBits, Ideal.ieee, -EReal.coe_mul]; norm_num

/-- The literal 1.0 and the literal 0.0 as both programs spell them. -/
abbrev c1 : EReal := Ideal.ofBits .f32 0x3F800000#32
abbrev c0 : EReal := Ideal.ofBits .f32 0x00000000#32

/-- Unit `j`'s pre-activation at row `r`: sum over k < 1024 of x[r,k] W[j,k], plus sum over
    k < 1024 of h[r,k] W[j,1024+k], plus b[j]. -/
def pre {n : Nat} (x h : Mat 8192 1024) (W : Mat n 2048) (b : Arr n) (r : Fin 8192) (j : Fin n) : EReal :=
  (∑ k : Fin 1024, x (ix2 r k) * W (ix2 j ⟨k.val, by omega⟩))
    + (∑ k : Fin 1024, h (ix2 r k) * W (ix2 j ⟨1024 + k.val, by omega⟩))
    + b (ix1 j)

/-- A new cell state at (r, q): sigmoid(forget) * previous + sigmoid(input) * tanh(candidate). -/
def cellAt (x h cm : Mat 8192 1024) (Wf : Mat 1024 2048) (bf : Arr 1024) (Wi : Mat 1024 2048) (bi : Arr 1024)
    (Wc : Mat 1024 2048) (bc : Arr 1024) (r : Fin 8192) (q : Fin 1024) : EReal :=
  Ideal.logistic (pre x h Wf bf r q) * cm (ix2 r q)
    + Ideal.logistic (pre x h Wi bi r q) * Ideal.tanh (pre x h Wc bc r q)

/-- The new cell state as an array. -/
def cell (x h cm : Mat 8192 1024) (Wf : Mat 1024 2048) (bf : Arr 1024) (Wi : Mat 1024 2048) (bi : Arr 1024)
    (Wc : Mat 1024 2048) (bc : Arr 1024) : Mat 8192 1024 :=
  fun i => cellAt x h cm Wf bf Wi bi Wc bc ⟨(i 0).val, idx2_lt0 i⟩ ⟨(i 1).val, idx2_lt1 i⟩

theorem cell_ix2 (x h cm : Mat 8192 1024) (Wf : Mat 1024 2048) (bf : Arr 1024) (Wi : Mat 1024 2048) (bi : Arr 1024)
    (Wc : Mat 1024 2048) (bc : Arr 1024) (r : Fin 8192) (q : Fin 1024) :
    cell x h cm Wf bf Wi bi Wc bc (ix2 r q) = cellAt x h cm Wf bf Wi bi Wc bc r q := rfl

/-- The output gate at (r, q). -/
def goAt (x h : Mat 8192 1024) (Wo : Mat 1024 2048) (bo : Arr 1024) (r : Fin 8192) (q : Fin 1024) : EReal :=
  Ideal.logistic (pre x h Wo bo r q)

def go (x h : Mat 8192 1024) (Wo : Mat 1024 2048) (bo : Arr 1024) : Mat 8192 1024 :=
  fun i => goAt x h Wo bo ⟨(i 0).val, idx2_lt0 i⟩ ⟨(i 1).val, idx2_lt1 i⟩

theorem go_ix2 (x h : Mat 8192 1024) (Wo : Mat 1024 2048) (bo : Arr 1024) (r : Fin 8192) (q : Fin 1024) :
    go x h Wo bo (ix2 r q) = goAt x h Wo bo r q := rfl

/-- The softplus of `y` in the form both programs compute. -/
def softplus (y : EReal) : EReal :=
  Ideal.div (max (c1 * y) c0 + Ideal.log1p (Ideal.exp (-(max (c1 * y - c0) (-(c1 * y - c0)))))) c1

/-- A decay rate at (r, j), j over the 4096 flat decay units. -/
def decayAt (x h : Mat 8192 1024) (Wd : Mat 4096 2048) (bd : Arr 4096) (r : Fin 8192) (j : Fin 4096) : EReal :=
  softplus (pre x h Wd bd r j)

def decay (x h : Mat 8192 1024) (Wd : Mat 4096 2048) (bd : Arr 4096) : Mat 8192 4096 :=
  fun i => decayAt x h Wd bd ⟨(i 0).val, idx2_lt0 i⟩ ⟨(i 1).val, idx2_lt1 i⟩

theorem decay_ix2 (x h : Mat 8192 1024) (Wd : Mat 4096 2048) (bd : Arr 4096) (r : Fin 8192) (j : Fin 4096) :
    decay x h Wd bd (ix2 r j) = decayAt x h Wd bd r j := rfl

/-- The affine form over BLOCKS as a kernel body sees them: rows of x and h of a block of `R` rows, the
    weights already transposed ([k, j]) and split into the x-half `wx` and the h-half `wh`, the bias a
    one-row matrix. -/
def zblk {R N : Nat} (x h : Mat R 1024) (wx wh : Mat 1024 N) (b : Mat 1 N) (p : Fin R) (j : Fin N) : EReal :=
  (∑ k : Fin 1024, x (ix2 p k) * wx (ix2 k j)) + (∑ k : Fin 1024, h (ix2 p k) * wh (ix2 k j))
    + b (ix2 (0 : Fin 1) j)

end Cert.Spec

end
-- ==== Proof.HostIn.lean ====
/-
  What the host operations in front of the two kernels leave in the operand arrays, read at an index.

  The six gate weight matrices are laid end to end along the rows (6144 x 2048), cut into the column half
  that meets x and the half that meets h, transposed and narrowed (the identity on the extended reals):
  entry (k, 1024 g + q) of the x-half is entry (q, k) of gate g's matrix, and of the h-half entry (q, 1024 + k).
  The six biases laid end to end and read as one row give entry (0, 1024 g + q) = bias g at q.  The decay
  weights and bias go the same way without a concatenation.
-/
import proofs.«166638_j39719857553628_1_alg».proof.Proof.Gen.KernelIdeal.Regions
import proofs.«166638_j39719857553628_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostIn

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The six gate weight matrices in the order they are laid end to end: input, forget, output, input-bar, forget-bar, candidate. -/
def Wg (g : Fin 6) : Spec.Mat 1024 2048 :=
  match g with
  | ⟨0, _⟩ => m ((c.tc : Thread nD τ).loc main_arg4)
  | ⟨1, _⟩ => m ((c.tc : Thread nD τ).loc main_arg6)
  | ⟨2, _⟩ => m ((c.tc : Thread nD τ).loc main_arg8)
  | ⟨3, _⟩ => m ((c.tc : Thread nD τ).loc main_arg10)
  | ⟨4, _⟩ => m ((c.tc : Thread nD τ).loc main_arg12)
  | ⟨_ + 5, _⟩ => m ((c.tc : Thread nD τ).loc main_arg14)

/-- The six gate biases in the same order. -/
def bg (g : Fin 6) : Spec.Arr 1024 :=
  match g with
  | ⟨0, _⟩ => m ((c.tc : Thread nD τ).loc main_arg5)
  | ⟨1, _⟩ => m ((c.tc : Thread nD τ).loc main_arg7)
  | ⟨2, _⟩ => m ((c.tc : Thread nD τ).loc main_arg9)
  | ⟨3, _⟩ => m ((c.tc : Thread nD τ).loc main_arg11)
  | ⟨4, _⟩ => m ((c.tc : Thread nD τ).loc main_arg13)
  | ⟨_ + 5, _⟩ => m ((c.tc : Thread nD τ).loc main_arg15)

/-- The six gate weight matrices laid end to end along the rows. -/
def catW : FVec Ideal S6144x2048 .f32 :=
  concatenate S6144x2048 0 [⟨S1024x2048, m ((c.tc : Thread nD τ).loc main_arg4)⟩, ⟨S1024x2048, m ((c.tc : Thread nD τ).loc main_arg6)⟩,
    ⟨S1024x2048, m ((c.tc : Thread nD τ).loc main_arg8)⟩, ⟨S1024x2048, m ((c.tc : Thread nD τ).loc main_arg10)⟩,
    ⟨S1024x2048, m ((c.tc : Thread nD τ).loc main_arg12)⟩, ⟨S1024x2048, m ((c.tc : Thread nD τ).loc main_arg14)⟩]
    concatenates_S1024x2048_S1024x2048_S1024x2048_S1024x2048_S1024x2048_S1024x2048_S6144x2048_d0

/-- The six gate biases laid end to end. -/
def catB : FVec Ideal S6144 .f32 :=
  concatenate S6144 0 [⟨S1024, m ((c.tc : Thread nD τ).loc main_arg5)⟩, ⟨S1024, m ((c.tc : Thread nD τ).loc main_arg7)⟩,
    ⟨S1024, m ((c.tc : Thread nD τ).loc main_arg9)⟩, ⟨S1024, m ((c.tc : Thread nD τ).loc main_arg11)⟩,
    ⟨S1024, m ((c.tc : Thread nD τ).loc main_arg13)⟩, ⟨S1024, m ((c.tc : Thread nD τ).loc main_arg15)⟩]
    concatenates_S1024_S1024_S1024_S1024_S1024_S1024_S6144_d0

/-! ## The operand arrays as terms over the arguments -/

theorem v4_eq : (V1 m c (Proc.devRef .tc main_v4) : S1024x6144.Idx → EReal)
    = (truncf (F := Ideal) .bf16 (transpose S1024x6144 [1, 0] (extractStridedSlice S6144x1024 ![0, 0] (catW m c)
        slices_S6144x2048_S6144x1024_0_0) transposes_S6144x1024_S1024x6144_1_0 : FVec Ideal S1024x6144 .f32) bitsLt_bf16_f32 : FVec Ideal S1024x6144 .bf16) := by
  dsimp only [V1, V0, hostOps0]
  after_results
  rfl

theorem v7_eq : (V1 m c (Proc.devRef .tc main_v7) : S1024x6144.Idx → EReal)
    = (truncf (F := Ideal) .bf16 (transpose S1024x6144 [1, 0] (extractStridedSlice S6144x1024 ![0, 1024] (catW m c)
        slices_S6144x2048_S6144x1024_0_1024) transposes_S6144x1024_S1024x6144_1_0 : FVec Ideal S1024x6144 .f32) bitsLt_bf16_f32 : FVec Ideal S1024x6144 .bf16) := by
  dsimp only [V1, V0, hostOps0]
  after_results
  rfl

theorem v8_eq : (V1 m c (Proc.devRef .tc main_v8) : S1x6144.Idx → EReal)
    = shapeCast S1x6144 (catB m c) shapeCasts_S6144_S1x6144 := by
  dsimp only [V1, V0, hostOps0]
  after_results
  rfl

theorem v11_eq : (V1 m c (Proc.devRef .tc main_v11) : S1024x4096.Idx → EReal)
    = (truncf (F := Ideal) .bf16 (transpose S1024x4096 [1, 0] (extractStridedSlice S4096x1024 ![0, 0]
        (m ((c.tc : Thread nD τ).loc main_arg16) : FVec Ideal S4096x2048 .f32)
        slices_S4096x2048_S4096x1024_0_0) transposes_S4096x1024_S1024x4096_1_0 : FVec Ideal S1024x4096 .f32) bitsLt_bf16_f32 : FVec Ideal S1024x4096 .bf16) := by
  dsimp only [V1, V0, hostOps0]
  after_results

theorem v14_eq : (V1 m c (Proc.devRef .tc main_v14) : S1024x4096.Idx → EReal)
    = (truncf (F := Ideal) .bf16 (transpose S1024x4096 [1, 0] (extractStridedSlice S4096x1024 ![0, 1024]
        (m ((c.tc : Thread nD τ).loc main_arg16) : FVec Ideal S4096x2048 .f32)
        slices_S4096x2048_S4096x1024_0_1024) transposes_S4096x1024_S1024x4096_1_0 : FVec Ideal S1024x4096 .f32) bitsLt_bf16_f32 : FVec Ideal S1024x4096 .bf16) := by
  dsimp only [V1, V0, hostOps0]
  after_results

theorem v15_eq : (V1 m c (Proc.devRef .tc main_v15) : S1x4096.Idx → EReal)
    = shapeCast S1x4096 (m ((c.tc : Thread nD τ).loc main_arg17) : FVec Ideal S4096 .f32) shapeCasts_S4096_S1x4096 := by
  dsimp only [V1, V0, hostOps0]
  after_results
  rfl

/-! ## The concatenations read at an index -/

/-- Row 1024 g + q of the stacked weights is row q of gate g's matrix. -/
theorem catW_apply (g : Fin 6) (q : Fin 1024) (j : Fin 2048) :
    catW m c (ix2 (⟨1024 * g.val + q.val, by omega⟩ : Fin 6144) j) = Wg m c g (ix2 q j) := by
  unfold catW
  match g with
  | ⟨0, _⟩ =>
    refine concatenate_apply_piece (t := S6144x2048) 0 _ _ _ 0 (by show (0 : Nat) < 6; omega) S1024x2048 _ rfl rfl 0 rfl (ix2 q j) ?_ ?_
    · exact fun b hb => match b with | ⟨0, _⟩ => absurd rfl hb | ⟨1, _⟩ => rfl
    · show 0 + q.val = 1024 * 0 + q.val; omega
  | ⟨1, _⟩ =>
    refine concatenate_apply_piece (t := S6144x2048) 0 _ _ _ 1 (by show (1 : Nat) < 6; omega) S1024x2048 _ rfl rfl 1024 rfl (ix2 q j) ?_ ?_
    · exact fun b hb => match b with | ⟨0, _⟩ => absurd rfl hb | ⟨1, _⟩ => rfl
    · show 1024 + q.val = 1024 * 1 + q.val; omega
  | ⟨2, _⟩ =>
    refine concatenate_apply_piece (t := S6144x2048) 0 _ _ _ 2 (by show (2 : Nat) < 6; omega) S1024x2048 _ rfl rfl 2048 rfl (ix2 q j) ?_ ?_
    · exact fun b hb => match b with | ⟨0, _⟩ => absurd rfl hb | ⟨1, _⟩ => rfl
    · show 2048 + q.val = 1024 * 2 + q.val; omega
  | ⟨3, _⟩ =>
    refine concatenate_apply_piece (t := S6144x2048) 0 _ _ _ 3 (by show (3 : Nat) < 6; omega) S1024x2048 _ rfl rfl 3072 rfl (ix2 q j) ?_ ?_
    · exact fun b hb => match b with | ⟨0, _⟩ => absurd rfl hb | ⟨1, _⟩ => rfl
    · show 3072 + q.val = 1024 * 3 + q.val; omega
  | ⟨4, _⟩ =>
    refine concatenate_apply_piece (t := S6144x2048) 0 _ _ _ 4 (by show (4 : Nat) < 6; omega) S1024x2048 _ rfl rfl 4096 rfl (ix2 q j) ?_ ?_
    · exact fun b hb => match b with | ⟨0, _⟩ => absurd rfl hb | ⟨1, _⟩ => rfl
    · show 4096 + q.val = 1024 * 4 + q.val; omega
  | ⟨5, _⟩ =>
    refine concatenate_apply_piece (t := S6144x2048) 0 _ _ _ 5 (by show (5 : Nat) < 6; omega) S1024x2048 _ rfl rfl 5120 rfl (ix2 q j) ?_ ?_
    · exact fun b hb => match b with | ⟨0, _⟩ => absurd rfl hb | ⟨1, _⟩ => rfl
    · show 5120 + q.val = 1024 * 5 + q.val; omega

/-- Entry 1024 g + q of the stacked biases is entry q of gate g's bias. -/
theorem catB_apply (g : Fin 6) (q : Fin 1024) :
    catB m c (ix1 (⟨1024 * g.val + q.val, by omega⟩ : Fin 6144)) = bg m c g (ix1 q) := by
  unfold catB
  match g with
  | ⟨0, _⟩ =>
    refine concatenate_apply_piece (t := S6144) 0 _ _ _ 0 (by show (0 : Nat) < 6; omega) S1024 _ rfl rfl 0 rfl (ix1 q) ?_ ?_
    · exact fun b hb => match b with | ⟨0, _⟩ => absurd rfl hb
    · show 0 + q.val = 1024 * 0 + q.val; omega
  | ⟨1, _⟩ =>
    refine concatenate_apply_piece (t := S6144) 0 _ _ _ 1 (by show (1 : Nat) < 6; omega) S1024 _ rfl rfl 1024 rfl (ix1 q) ?_ ?_
    · exact fun b hb => match b with | ⟨0, _⟩ => absurd rfl hb
    · show 1024 + q.val = 1024 * 1 + q.val; omega
  | ⟨2, _⟩ =>
    refine concatenate_apply_piece (t := S6144) 0 _ _ _ 2 (by show (2 : Nat) < 6; omega) S1024 _ rfl rfl 2048 rfl (ix1 q) ?_ ?_
    · exact fun b hb => match b with | ⟨0, _⟩ => absurd rfl hb
    · show 2048 + q.val = 1024 * 2 + q.val; omega
  | ⟨3, _⟩ =>
    refine concatenate_apply_piece (t := S6144) 0 _ _ _ 3 (by show (3 : Nat) < 6; omega) S1024 _ rfl rfl 3072 rfl (ix1 q) ?_ ?_
    · exact fun b hb => match b with | ⟨0, _⟩ => absurd rfl hb
    · show 3072 + q.val = 1024 * 3 + q.val; omega
  | ⟨4, _⟩ =>
    refine concatenate_apply_piece (t := S6144) 0 _ _ _ 4 (by show (4 : Nat) < 6; omega) S1024 _ rfl rfl 4096 rfl (ix1 q) ?_ ?_
    · exact fun b hb => match b with | ⟨0, _⟩ => absurd rfl hb
    · show 4096 + q.val = 1024 * 4 + q.val; omega
  | ⟨5, _⟩ =>
    refine concatenate_apply_piece (t := S6144) 0 _ _ _ 5 (by show (5 : Nat) < 6; omega) S1024 _ rfl rfl 5120 rfl (ix1 q) ?_ ?_
    · exact fun b hb => match b with | ⟨0, _⟩ => absurd rfl hb
    · show 5120 + q.val = 1024 * 5 + q.val; omega

/-! ## The operand arrays read at an index -/

/-- Entry (k, r) of the first kernel's x-half is entry (r, k) of the stacked weights. -/
theorem v4_apply (k : Fin 1024) (r : Fin 6144) :
    (V1 m c (Proc.devRef .tc main_v4) : S1024x6144.Idx → EReal) (ix2 k r)
      = catW m c (ix2 r (⟨k.val, by omega⟩ : Fin 2048)) := by
  refine (congrFun (v4_eq m c) _).trans ?_
  refine (truncf_apply (φ := .f32) (ψ := .bf16) _ bitsLt_bf16_f32 _).trans ?_
  refine (transpose_ix2_apply _ transposes_S6144x1024_S1024x6144_1_0 k r).trans ?_
  exact slice2_axis1_apply 0 (catW m c) slices_S6144x2048_S6144x1024_0_0 r k ⟨k.val, by omega⟩ (by show k.val = 0 + k.val; omega)

/-- Entry (k, r) of the first kernel's h-half is entry (r, 1024 + k) of the stacked weights. -/
theorem v7_apply (k : Fin 1024) (r : Fin 6144) :
    (V1 m c (Proc.devRef .tc main_v7) : S1024x6144.Idx → EReal) (ix2 k r)
      = catW m c (ix2 r (⟨1024 + k.val, by omega⟩ : Fin 2048)) := by
  refine (congrFun (v7_eq m c) _).trans ?_
  refine (truncf_apply (φ := .f32) (ψ := .bf16) _ bitsLt_bf16_f32 _).trans ?_
  refine (transpose_ix2_apply _ transposes_S6144x1024_S1024x6144_1_0 k r).trans ?_
  exact slice2_axis1_apply 1024 (catW m c) slices_S6144x2048_S6144x1024_0_1024 r k ⟨1024 + k.val, by omega⟩ rfl

/-- Entry (0, r) of the bias row is entry r of the stacked biases. -/
theorem v8_apply (r : Fin 6144) :
    (V1 m c (Proc.devRef .tc main_v8) : S1x6144.Idx → EReal) (ix2 (0 : Fin 1) r) = catB m c (ix1 r) := by
  refine (congrFun (v8_eq m c) _).trans ?_
  refine shapeCast_apply (catB m c) shapeCasts_S6144_S1x6144 (ix2 (0 : Fin 1) r) (ix1 r) ?_
  rw [Shape.rowMajor_val_one, Shape.rowMajor_val_two]
  show r.val = 0 * 6144 + r.val
  omega

/-! ## The statements -/

/-- The x-half of the gate weights as the first kernel is handed it: entry (k, 1024 g + q) is gate g's W[q, k]. -/
theorem wx1_apply (g : Fin 6) (k q : Fin 1024) :
    (V1 m c (Proc.devRef .tc main_v4) : S1024x6144.Idx → EReal) (ix2 k ⟨1024 * g.val + q.val, by omega⟩)
      = Wg m c g (ix2 q ⟨k.val, by omega⟩) := by
  exact (v4_apply m c k _).trans (catW_apply m c g q _)

/-- The h-half: entry (k, 1024 g + q) is gate g's W[q, 1024 + k]. -/
theorem wh1_apply (g : Fin 6) (k q : Fin 1024) :
    (V1 m c (Proc.devRef .tc main_v7) : S1024x6144.Idx → EReal) (ix2 k ⟨1024 * g.val + q.val, by omega⟩)
      = Wg m c g (ix2 q ⟨1024 + k.val, by omega⟩) := by
  exact (v7_apply m c k _).trans (catW_apply m c g q _)

/-- The gate biases as one row: entry (0, 1024 g + q) is gate g's b[q]. -/
theorem b1_apply (g : Fin 6) (q : Fin 1024) :
    (V1 m c (Proc.devRef .tc main_v8) : S1x6144.Idx → EReal) (ix2 (0 : Fin 1) ⟨1024 * g.val + q.val, by omega⟩)
      = bg m c g (ix1 q) := by
  exact (v8_apply m c _).trans (catB_apply m c g q)

/-- The x-half of the decay weights as the second kernel is handed it: entry (k, j) is Wd[j, k]. -/
theorem wx2_apply (k : Fin 1024) (j : Fin 4096) :
    (V1 m c (Proc.devRef .tc main_v11) : S1024x4096.Idx → EReal) (ix2 k j)
      = (m ((c.tc : Thread nD τ).loc main_arg16) : Spec.Mat 4096 2048) (ix2 j ⟨k.val, by omega⟩) := by
  refine (congrFun (v11_eq m c) _).trans ?_
  refine (truncf_apply (φ := .f32) (ψ := .bf16) _ bitsLt_bf16_f32 _).trans ?_
  refine (transpose_ix2_apply _ transposes_S4096x1024_S1024x4096_1_0 k j).trans ?_
  exact slice2_axis1_apply 0 _ slices_S4096x2048_S4096x1024_0_0 j k ⟨k.val, by omega⟩ (by show k.val = 0 + k.val; omega)

/-- The h-half of the decay weights: entry (k, j) is Wd[j, 1024 + k]. -/
theorem wh2_apply (k : Fin 1024) (j : Fin 4096) :
    (V1 m c (Proc.devRef .tc main_v14) : S1024x4096.Idx → EReal) (ix2 k j)
      = (m ((c.tc : Thread nD τ).loc main_arg16) : Spec.Mat 4096 2048) (ix2 j ⟨1024 + k.val, by omega⟩) := by
  refine (congrFun (v14_eq m c) _).trans ?_
  refine (truncf_apply (φ := .f32) (ψ := .bf16) _ bitsLt_bf16_f32 _).trans ?_
  refine (transpose_ix2_apply _ transposes_S4096x1024_S1024x4096_1_0 k j).trans ?_
  exact slice2_axis1_apply 1024 _ slices_S4096x2048_S4096x1024_0_1024 j k ⟨1024 + k.val, by omega⟩ rfl

/-- The decay bias as one row: entry (0, j) is bd[j]. -/
theorem b2_apply (j : Fin 4096) :
    (V1 m c (Proc.devRef .tc main_v15) : S1x4096.Idx → EReal) (ix2 (0 : Fin 1) j)
      = (m ((c.tc : Thread nD τ).loc main_arg17) : Spec.Arr 4096) (ix1 j) := by
  refine (congrFun (v15_eq m c) _).trans ?_
  refine shapeCast_apply _ shapeCasts_S4096_S1x4096 (ix2 (0 : Fin 1) j) (ix1 j) ?_
  rw [Shape.rowMajor_val_one, Shape.rowMajor_val_two]
  show j.val = 0 * 4096 + j.val
  omega

end Cert.KernelIdeal.HostIn

end
-- ==== Proof.KPay.lean ====
/-
  The kernel bodies' stored values at an index, on the extended reals.

  Each body forms z = x·wx + h·wh + b over its block of rows (two matrix products into zero
  accumulators, added, plus the bias row broadcast down the rows) and stores pointwise functions of
  column windows of z.  At entry (p, q) a product into a zero accumulator is the plain sum over the
  contracted axis, a column window reads z at the window's offset plus q, and a format change is the
  identity; so each stored value at (p, q) is the stated function of `Spec.zblk` at row p.
-/
import proofs.«166638_j39719857553628_1_alg».proof.Proof.Gen.KernelIdeal.Skeleton
import proofs.«166638_j39719857553628_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Cert.KernelIdeal Cert.KernelIdeal.Gen Idealize.ShloMosaic Idealize.ShloMosaic.ValueIdx

/-! ## A matrix product into a zero accumulator, read at an index

The operand indices of the product at output index (p, j) and contraction coordinate k are (p, k) and (k, j); the sum
over the contraction index is re-indexed by its one coordinate. Once for the gate body's shapes, once for the decay
body's. -/

/-- Gate body: the left operand's row is the output's row. -/
theorem lhs_g_0 (i : S128x6144.Idx) (q : dot_S128x1024_S1024x6144_S128x6144_1_0_0_1_n_n.contr.Idx) :
    (dot_S128x1024_S1024x6144_S128x6144_1_0_0_1_n_n.lhsIdx i q 0).val = (i 0).val := by
  unfold DotDims.lhsIdx
  rw [dif_neg (show ¬(0 : Fin S128x1024.rank) ∈ dot_S128x1024_S1024x6144_S128x6144_1_0_0_1_n_n.lhsBatch by decide), dif_pos (show (0 : Fin S128x1024.rank) ∈ dot_S128x1024_S1024x6144_S128x6144_1_0_0_1_n_n.lhsNonContracting by decide)]
  rfl
/-- Gate body: the left operand's column is the contracted coordinate. -/
theorem lhs_g_1 (i : S128x6144.Idx) (q : dot_S128x1024_S1024x6144_S128x6144_1_0_0_1_n_n.contr.Idx) :
    (dot_S128x1024_S1024x6144_S128x6144_1_0_0_1_n_n.lhsIdx i q 1).val = (q ⟨0, by decide⟩).val :=
  dot_S128x1024_S1024x6144_S128x6144_1_0_0_1_n_n.lhsIdx_val_of_single rfl i q
/-- Gate body: the right operand's row is the contracted coordinate. -/
theorem rhs_g_0 (i : S128x6144.Idx) (q : dot_S128x1024_S1024x6144_S128x6144_1_0_0_1_n_n.contr.Idx) :
    (dot_S128x1024_S1024x6144_S128x6144_1_0_0_1_n_n.rhsIdx i q 0).val = (q ⟨0, by decide⟩).val :=
  dot_S128x1024_S1024x6144_S128x6144_1_0_0_1_n_n.rhsIdx_val_of_single rfl i q
/-- Gate body: the right operand's column is the output's column. -/
theorem rhs_g_1 (i : S128x6144.Idx) (q : dot_S128x1024_S1024x6144_S128x6144_1_0_0_1_n_n.contr.Idx) :
    (dot_S128x1024_S1024x6144_S128x6144_1_0_0_1_n_n.rhsIdx i q 1).val = (i 1).val := by
  unfold DotDims.rhsIdx
  rw [dif_neg (show ¬(1 : Fin S1024x6144.rank) ∈ dot_S128x1024_S1024x6144_S128x6144_1_0_0_1_n_n.rhsBatch by decide), dif_pos (show (1 : Fin S1024x6144.rank) ∈ dot_S128x1024_S1024x6144_S128x6144_1_0_0_1_n_n.rhsNonContracting by decide)]
  rfl

/-- Gate body: a product into the zero accumulator at (p, j) is the sum over the contracted axis. -/
theorem mm_g_apply (l : FVec Ideal S128x1024 .bf16) (r : FVec Ideal S1024x6144 .bf16) (p : Fin 128) (j : Fin 6144) :
    matmul dot_S128x1024_S1024x6144_S128x6144_1_0_0_1_n_n none l r (constant (F := Ideal) S128x6144 .f32 0x00000000#32) (ix2 p j)
      = ∑ k : Fin 1024, l (ix2 p k) * r (ix2 k j) := by
  simp only [matmul]
  rw [Ideal.matmul_constant_zero_apply, ← Equiv.sum_comp (contrEquiv1 dot_S128x1024_S1024x6144_S128x6144_1_0_0_1_n_n 1024 rfl rfl).symm]
  refine Finset.sum_congr rfl fun k _ => ?_
  have hk := contrEquiv1_symm_val dot_S128x1024_S1024x6144_S128x6144_1_0_0_1_n_n 1024 rfl rfl k
  have el : dot_S128x1024_S1024x6144_S128x6144_1_0_0_1_n_n.lhsIdx (ix2 p j) ((contrEquiv1 dot_S128x1024_S1024x6144_S128x6144_1_0_0_1_n_n 1024 rfl rfl).symm k) = ix2 p k := funext fun a => Fin.ext (by
    match a with
    | ⟨0, _⟩ => exact lhs_g_0 _ _
    | ⟨1, _⟩ => exact (lhs_g_1 _ _).trans hk)
  have er : dot_S128x1024_S1024x6144_S128x6144_1_0_0_1_n_n.rhsIdx (ix2 p j) ((contrEquiv1 dot_S128x1024_S1024x6144_S128x6144_1_0_0_1_n_n 1024 rfl rfl).symm k) = ix2 k j := funext fun a => Fin.ext (by
    match a with
    | ⟨0, _⟩ => exact (rhs_g_0 _ _).trans hk
    | ⟨1, _⟩ => exact rhs_g_1 _ _)
  rw [el, er]

/-- Decay body: the left operand's row is the output's row. -/
theorem lhs_d_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- Decay body: the left operand's column is the contracted coordinate. -/
theorem lhs_d_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- Decay body: the right operand's row is the contracted coordinate. -/
theorem rhs_d_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- Decay body: the right operand's column is the output's column. -/
theorem rhs_d_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Decay body: a product into the zero accumulator at (p, j) is the sum over the contracted axis. -/
theorem mm_d_apply (l : FVec Ideal S256x1024 .bf16) (r : FVec Ideal S1024x4096 .bf16) (p : Fin 256) (j : Fin 4096) :
    matmul dot_S256x1024_S1024x4096_S256x4096_1_0_0_1_n_n none l r (constant (F := Ideal) S256x4096 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun a => Fin.ext (by
    match a with
    | ⟨0, _⟩ => exact lhs_d_0 _ _
    | ⟨1, _⟩ => exact (lhs_d_1 _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun a => Fin.ext (by
    match a with
    | ⟨0, _⟩ => exact (rhs_d_0 _ _).trans hk
    | ⟨1, _⟩ => exact rhs_d_1 _ _)
  rw [el, er]

/-! ## The remaining pointwise operations read at an index -/

section Pointwise
variable {s : Shape} {φ : FTy}

/-- A sigmoid at an index is the sigmoid of the element. -/
theorem logistic_apply (a : FVec Ideal s φ) (i : s.Idx) : logistic a i = Ideal.logistic (a i) := rfl
/-- A hyperbolic tangent at an index is that of the element. -/
theorem tanh_apply (a : FVec Ideal s φ) (i : s.Idx) : tanh a i = Ideal.tanh (a i) := rfl
/-- An exponential at an index is that of the element. -/
theorem exp_apply (a : FVec Ideal s φ) (i : s.Idx) : exp a i = Ideal.exp (a i) := rfl
/-- log(1 + ·) at an index is that of the element. -/
theorem log1p_apply (a : FVec Ideal s φ) (i : s.Idx) : log1p a i = Ideal.log1p (a i) := rfl
/-- An absolute value at an index is the larger of the element and its negation. -/
theorem absf_apply (a : FVec Ideal s φ) (i : s.Idx) : absf a i = max (a i) (-(a i)) := rfl

end Pointwise

/-! ## z = x·wx + h·wh + b at an index -/

/-- z of the gate body at (p, j). -/
theorem pay_z_apply (x h : Vec Ideal S128x1024 .f32) (wx wh : Vec Ideal S1024x6144 .bf16) (b : Vec Ideal S1x6144 .f32)
    (p : Fin 128) (j : Fin 6144) :
    k0_pay1 (F := Ideal) x h wx wh b (ix2 p j) = Spec.zblk x h wx wh b p j := by
  unfold k0_pay1 Spec.zblk
  rw [shapeCast_self, shapeCast_self, shapeCast_self, addf_apply, addf_apply, mm_g_apply, mm_g_apply,
    broadcastTo_1b_ab_apply]
  rfl

/-- A column window of z from offset `o` at (p, q) is z at column `o + q`. -/
theorem win_apply (o : Nat) (x h : Vec Ideal S128x1024 .f32) (wx wh : Vec Ideal S1024x6144 .bf16) (b : Vec Ideal S1x6144 .f32)
    (hs : S128x6144.Slices ![0, o] S128x1024) (p : Fin 128) (q : Fin 1024) (k : Fin 6144) (hk : k.val = o + q.val) :
    extractStridedSlice S128x1024 ![0, o] (k0_pay1 (F := Ideal) x h wx wh b) hs (ix2 p q) = Spec.zblk x h wx wh b p k :=
  (slice2_axis1_apply o _ hs p q k hk).trans (pay_z_apply x h wx wh b p k)

/-- The candidate's stored value at (p, q): tanh of column 5120+q. -/
theorem pay3_apply (x h : Vec Ideal S128x1024 .f32) (wx wh : Vec Ideal S1024x6144 .bf16) (b : Vec Ideal S1x6144 .f32)
    (p : Fin 128) (q : Fin 1024) :
    k0_pay3 (F := Ideal) x h wx wh b (ix2 p q) = Ideal.tanh (Spec.zblk x h wx wh b p ⟨5120 + q.val, by omega⟩) := by
  unfold k0_pay3
  rw [tanh_apply, win_apply 5120 x h wx wh b _ p q ⟨5120 + q.val, by omega⟩ rfl]

/-- z of the decay body at (p, j): the same three terms over that body's shapes. -/
theorem dec_z_apply (x h : FVec Ideal S256x1024 .f32) (wx wh : FVec Ideal S1024x4096 .bf16) (b : FVec Ideal S1x4096 .f32)
    (p : Fin 256) (j : Fin 4096) :
    addf (addf
        (matmul dot_S256x1024_S1024x4096_S256x4096_1_0_0_1_n_n none (truncf .bf16 x bitsLt_bf16_f32)
          (shapeCast S1024x4096 wx shapeCasts_S1024x4096_S1024x4096) (constant (F := Ideal) S256x4096 .f32 0x00000000#32))
        (matmul dot_S256x1024_S1024x4096_S256x4096_1_0_0_1_n_n none (truncf .bf16 h bitsLt_bf16_f32)
          (shapeCast S1024x4096 wh shapeCasts_S1024x4096_S1024x4096) (constant (F := Ideal) S256x4096 .f32 0x00000000#32)))
      (broadcastTo S256x4096 (shapeCast S1x4096 b shapeCasts_S1x4096_S1x4096) broadcasts_S1x4096_S256x4096) (ix2 p j)
      = Spec.zblk x h wx wh b p j := by
  unfold Spec.zblk
  rw [shapeCast_self, shapeCast_self, shapeCast_self, addf_apply, addf_apply, mm_d_apply, mm_d_apply,
    broadcastTo_1b_ab_apply]
  rfl

/-! ## The decay body's two scalar facts -/

/-- "Differs from itself" is false on the extended reals: the comparison's bit is 0. -/
theorem cmp_one_self (d : EReal) : Ideal.cmp CmpFPredicate.one d d = 0#1 := by
  show BitVec.ofBool (decide (d ≠ d)) = 0#1
  rw [decide_eq_false (fun hd => hd rfl)]
  rfl

/-- The zero word minus `a` is `-a`. -/
theorem zero_word_sub (a : EReal) : Ideal.ofBits .f32 0x00000000#32 - a = -a := by
  rw [Ideal.ofBits_zero_f32, zero_sub]

/-! ## The stored values -/

/-- The first new cell state's stored value at (p, q): sigmoid of column 1024+q times the previous state,
    plus sigmoid of column q times tanh of column 5120+q. -/
theorem pay4_apply (x h : Vec Ideal S128x1024 .f32) (wx wh : Vec Ideal S1024x6144 .bf16) (b : Vec Ideal S1x6144 .f32)
    (cm : Vec Ideal S128x1024 .f32) (p : Fin 128) (q : Fin 1024) :
    k0_pay4 (F := Ideal) x h wx wh b cm (ix2 p q)
      = Ideal.logistic (Spec.zblk x h wx wh b p ⟨1024 + q.val, by omega⟩) * cm (ix2 p q)
        + Ideal.logistic (Spec.zblk x h wx wh b p ⟨q.val, by omega⟩)
          * Ideal.tanh (Spec.zblk x h wx wh b p ⟨5120 + q.val, by omega⟩) := by
  unfold k0_pay4
  rw [addf_apply, mulf_apply, mulf_apply, logistic_apply, logistic_apply, pay3_apply,
    win_apply 1024 x h wx wh b _ p q ⟨1024 + q.val, by omega⟩ rfl,
    win_apply 0 x h wx wh b _ p q ⟨q.val, by omega⟩ (Nat.zero_add _).symm]

/-- The second new cell state's stored value at (p, q): columns 4096+q (forget), 3072+q (input), 5120+q (candidate). -/
theorem pay5_apply (x h : Vec Ideal S128x1024 .f32) (wx wh : Vec Ideal S1024x6144 .bf16) (b : Vec Ideal S1x6144 .f32)
    (cb : Vec Ideal S128x1024 .f32) (p : Fin 128) (q : Fin 1024) :
    k0_pay5 (F := Ideal) x h wx wh b cb (ix2 p q)
      = Ideal.logistic (Spec.zblk x h wx wh b p ⟨4096 + q.val, by omega⟩) * cb (ix2 p q)
        + Ideal.logistic (Spec.zblk x h wx wh b p ⟨3072 + q.val, by omega⟩)
          * Ideal.tanh (Spec.zblk x h wx wh b p ⟨5120 + q.val, by omega⟩) := by
  unfold k0_pay5
  rw [addf_apply, mulf_apply, mulf_apply, logistic_apply, logistic_apply, pay3_apply,
    win_apply 4096 x h wx wh b _ p q ⟨4096 + q.val, by omega⟩ rfl,
    win_apply 3072 x h wx wh b _ p q ⟨3072 + q.val, by omega⟩ rfl]

/-- The output gate's stored value at (p, q): sigmoid of column 2048+q. -/
theorem pay2_apply (x h : Vec Ideal S128x1024 .f32) (wx wh : Vec Ideal S1024x6144 .bf16) (b : Vec Ideal S1x6144 .f32)
    (p : Fin 128) (q : Fin 1024) :
    k0_pay2 (F := Ideal) x h wx wh b (ix2 p q)
      = Ideal.logistic (Spec.zblk x h wx wh b p ⟨2048 + q.val, by omega⟩) := by
  unfold k0_pay2
  rw [logistic_apply, win_apply 2048 x h wx wh b _ p q ⟨2048 + q.val, by omega⟩ rfl]

/-- The decay body's stored value at (p, j): the softplus of z at (p, j). -/
theorem pay1_apply (x h : Vec Ideal S256x1024 .f32) (wx wh : Vec Ideal S1024x4096 .bf16) (b : Vec Ideal S1x4096 .f32)
    (p : Fin 256) (j : Fin 4096) :
    k1_pay1 (F := Ideal) x h wx wh b (ix2 p j) = Spec.softplus (Spec.zblk x h wx wh b p j) := by
  unfold k1_pay1
  -- every operation after z is pointwise; z itself at (p, j) is `Spec.zblk`
  simp only [↓dec_z_apply, divf_apply, select_apply, cmpf_apply, addf_apply, mulf_apply, subf_apply, maximumf_apply,
    broadcast_apply, absf_apply, exp_apply, log1p_apply]
  generalize Spec.zblk x h wx wh b p j = y
  unfold Spec.softplus
  -- y ≠ y is false, so the guard selects the softplus branch; and 0 - |d| = -|d|
  rw [Ideal.cmpf_def, Ideal.ofBits_def, Ideal.ofBits_def, cmp_one_self, select_zero, zero_word_sub]

end Cert.KernelIdeal.KPay

end
-- ==== Proof.Values.lean ====
/-
  The kernels' results as the specification's arrays.

  A grid point of the first kernel holds rows 128 t … 128 t + 127 of x, h and the previous cell states and the
  whole weight halves and bias row; what it writes back to an output is the body's stored value of those blocks.
  Read at row p and column q, the body's z at column 1024 g + q is the specification's pre-activation of gate g's unit
  q at row 128 t + p: the x-block's row is that row of x, and the weight halves' column 1024 g + q is gate g's weight row
  q (its first and last 1024 entries).  So each write-back is the block of one whole-array function, the blocks tile the
  array, and the array ends at that function.  The second kernel goes the same way with 256-row blocks and the decay
  weights.
-/
import proofs.«166638_j39719857553628_1_alg».proof.Proof.KernelIdeal.Run
import proofs.«166638_j39719857553628_1_alg».proof.Proof.HostIn
import proofs.«166638_j39719857553628_1_alg».proof.Proof.KPay
import proofs.«166638_j39719857553628_1_alg».proof.Proof.Spec
import Idealize.ShloMosaic.Lib.Pipeline.Value
import Idealize.ShloMosaic.Lib.ValueIdx

set_option maxRecDepth 16384

noncomputable section

namespace Cert.KernelIdeal.Values

open Cert.KernelIdeal Cert.KernelIdeal.Gen Cert.KernelIdeal.Body0 Cert.KernelIdeal.Body1 Cert.KernelIdeal.Run
  Cert.KernelIdeal.HostIn Cert.KernelIdeal.KPay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-! ## The index maps, decided over the grids -/

/-- First kernel: a row window's block index at point `t` is (t, 0); a resident window's is (0, 0). -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- Second kernel: likewise. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_5.index t (0 : Fin 2) = t.val
    ∧ win1_5.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-! ## The arguments reach both kernels as launched -/

theorem E1_arg0 : E1 m c main_arg0 = m ((c.tc : Thread nD τ).loc main_arg0) := (V1_of m c main_arg0 (by decide)).trans rfl
theorem E1_arg1 : E1 m c main_arg1 = m ((c.tc : Thread nD τ).loc main_arg1) := (V1_of m c main_arg1 (by decide)).trans rfl
theorem E1_arg2 : E1 m c main_arg2 = m ((c.tc : Thread nD τ).loc main_arg2) := (V1_of m c main_arg2 (by decide)).trans rfl
theorem E1_arg3 : E1 m c main_arg3 = m ((c.tc : Thread nD τ).loc main_arg3) := (V1_of m c main_arg3 (by decide)).trans rfl
theorem E2_arg0 : E2 m c main_arg0 = m ((c.tc : Thread nD τ).loc main_arg0) :=
  (V2_of m (o2 m) c main_arg0 (by decide)).trans ((V1_of m c main_arg0 (by decide)).trans rfl)
theorem E2_arg1 : E2 m c main_arg1 = m ((c.tc : Thread nD τ).loc main_arg1) :=
  (V2_of m (o2 m) c main_arg1 (by decide)).trans ((V1_of m c main_arg1 (by decide)).trans rfl)
/-- The staged operands of the second kernel are as the host operations left them: the first kernel writes none. -/
theorem E2_v11 : E2 m c main_v11 = V1 m c (Proc.devRef .tc main_v11) := V2_of m (o2 m) c main_v11 (by decide)
theorem E2_v14 : E2 m c main_v14 = V1 m c (Proc.devRef .tc main_v14) := V2_of m (o2 m) c main_v14 (by decide)
theorem E2_v15 : E2 m c main_v15 = V1 m c (Proc.devRef .tc main_v15) := V2_of m (o2 m) c main_v15 (by decide)

/-! ## The windows' blocks, read at an entry -/

/-- Window 0's block at point `t` is rows 128 t … 128 t + 127 of argument 0. -/
theorem blk0_0 (t : Fin cfg0.N) (p : Fin 128) (k : Fin 1024) (r : Fin 8192) (hr : r.val = 128 * t.val + p.val) :
    (iblk0 (E1 m) c 0 t : S128x1024.Idx → EReal) (ix2 p k)
      = (m ((c.tc : Thread nD τ).loc main_arg0) : S8192x1024.Idx → EReal) (ix2 r k) := by
  unfold iblk0
  rw [View.read_apply]
  show E1 m c main_arg0 _ = _
  rw [E1_arg0]
  congr 1
  funext a
  apply Fin.ext
  match a with
  | ⟨0, _⟩ => show win0_0.index t (0 : Fin 2) * 128 + 1 * p.val = r.val; rw [(idx0 t).1, hr]; omega
  | ⟨1, _⟩ => show win0_0.index t (1 : Fin 2) * 1024 + 1 * k.val = k.val; rw [(idx0 t).2.1]; omega

/-- Window 1's block at point `t` is rows 128 t … 128 t + 127 of argument 1. -/
theorem blk0_1 (t : Fin cfg0.N) (p : Fin 128) (k : Fin 1024) (r : Fin 8192) (hr : r.val = 128 * t.val + p.val) :
    (iblk0 (E1 m) c 1 t : S128x1024.Idx → EReal) (ix2 p k)
      = (m ((c.tc : Thread nD τ).loc main_arg1) : S8192x1024.Idx → EReal) (ix2 r k) := by
  unfold iblk0
  rw [View.read_apply]
  show E1 m c main_arg1 _ = _
  rw [E1_arg1]
  congr 1
  funext a
  apply Fin.ext
  match a with
  | ⟨0, _⟩ => show win0_1.index t (0 : Fin 2) * 128 + 1 * p.val = r.val; rw [(idx0 t).2.2.1, hr]; omega
  | ⟨1, _⟩ => show win0_1.index t (1 : Fin 2) * 1024 + 1 * k.val = k.val; rw [(idx0 t).2.2.2.1]; omega

/-- Window 2's block at point `t` is rows 128 t … 128 t + 127 of argument 2. -/
theorem blk0_2 (t : Fin cfg0.N) (p : Fin 128) (k : Fin 1024) (r : Fin 8192) (hr : r.val = 128 * t.val + p.val) :
    (iblk0 (E1 m) c 2 t : S128x1024.Idx → EReal) (ix2 p k)
      = (m ((c.tc : Thread nD τ).loc main_arg2) : S8192x1024.Idx → EReal) (ix2 r k) := by
  unfold iblk0
  rw [View.read_apply]
  show E1 m c main_arg2 _ = _
  rw [E1_arg2]
  congr 1
  funext a
  apply Fin.ext
  match a with
  | ⟨0, _⟩ => show win0_2.index t (0 : Fin 2) * 128 + 1 * p.val = r.val; rw [(idx0 t).2.2.2.2.1, hr]; omega
  | ⟨1, _⟩ => show win0_2.index t (1 : Fin 2) * 1024 + 1 * k.val = k.val; rw [(idx0 t).2.2.2.2.2.1]; omega

/-- Window 3's block at point `t` is rows 128 t … 128 t + 127 of argument 3. -/
theorem blk0_3 (t : Fin cfg0.N) (p : Fin 128) (k : Fin 1024) (r : Fin 8192) (hr : r.val = 128 * t.val + p.val) :
    (iblk0 (E1 m) c 3 t : S128x1024.Idx → EReal) (ix2 p k)
      = (m ((c.tc : Thread nD τ).loc main_arg3) : S8192x1024.Idx → EReal) (ix2 r k) := by
  unfold iblk0
  rw [View.read_apply]
  show E1 m c main_arg3 _ = _
  rw [E1_arg3]
  congr 1
  funext a
  apply Fin.ext
  match a with
  | ⟨0, _⟩ => show win0_3.index t (0 : Fin 2) * 128 + 1 * p.val = r.val; rw [(idx0 t).2.2.2.2.2.2.1, hr]; omega
  | ⟨1, _⟩ => show win0_3.index t (1 : Fin 2) * 1024 + 1 * k.val = k.val; rw [(idx0 t).2.2.2.2.2.2.2.1]; omega

/-- Window 4 stages its whole array at every point. -/
theorem blk0_4 (t : Fin cfg0.N) (k : Fin 1024) (j : Fin 6144) :
    (iblk0 (E1 m) c 4 t : S1024x6144.Idx → EReal) (ix2 k j)
      = (V1 m c (Proc.devRef .tc main_v4) : S1024x6144.Idx → EReal) (ix2 k j) := by
  unfold iblk0
  rw [View.read_apply]
  show V1 m c (Proc.devRef .tc main_v4) _ = _
  congr 1
  funext x
  apply Fin.ext
  match x with
  | ⟨0, _⟩ => show win0_4.index t (0 : Fin 2) * 1024 + 1 * k.val = k.val; rw [(idx0 t).2.2.2.2.2.2.2.2.2.2.2.2.2.2.1]; omega
  | ⟨1, _⟩ => show win0_4.index t (1 : Fin 2) * 6144 + 1 * j.val = j.val; rw [(idx0 t).2.2.2.2.2.2.2.2.2.2.2.2.2.2.2.1]; omega

/-- Window 5 stages its whole array at every point. -/
theorem blk0_5 (t : Fin cfg0.N) (k : Fin 1024) (j : Fin 6144) :
    (iblk0 (E1 m) c 5 t : S1024x6144.Idx → EReal) (ix2 k j)
      = (V1 m c (Proc.devRef .tc main_v7) : S1024x6144.Idx → EReal) (ix2 k j) := by
  unfold iblk0
  rw [View.read_apply]
  show V1 m c (Proc.devRef .tc main_v7) _ = _
  congr 1
  funext x
  apply Fin.ext
  match x with
  | ⟨0, _⟩ => show win0_5.index t (0 : Fin 2) * 1024 + 1 * k.val = k.val; rw [(idx0 t).2.2.2.2.2.2.2.2.2.2.2.2.2.2.2.2.1]; omega
  | ⟨1, _⟩ => show win0_5.index t (1 : Fin 2) * 6144 + 1 * j.val = j.val; rw [(idx0 t).2.2.2.2.2.2.2.2.2.2.2.2.2.2.2.2.2.1]; omega

/-- Window 6 stages its whole array at every point. -/
theorem blk0_6 (t : Fin cfg0.N) (k : Fin 1) (j : Fin 6144) :
    (iblk0 (E1 m) c 6 t : S1x6144.Idx → EReal) (ix2 k j)
      = (V1 m c (Proc.devRef .tc main_v8) : S1x6144.Idx → EReal) (ix2 k j) := by
  unfold iblk0
  rw [View.read_apply]
  show V1 m c (Proc.devRef .tc main_v8) _ = _
  congr 1
  funext x
  apply Fin.ext
  match x with
  | ⟨0, _⟩ => show win0_6.index t (0 : Fin 2) * 1 + 1 * k.val = k.val; rw [(idx0 t).2.2.2.2.2.2.2.2.2.2.2.2.2.2.2.2.2.2.1]; omega
  | ⟨1, _⟩ => show win0_6.index t (1 : Fin 2) * 6144 + 1 * j.val = j.val; rw [(idx0 t).2.2.2.2.2.2.2.2.2.2.2.2.2.2.2.2.2.2.2]; omega

/-- Window 0's block at point `t` is rows 256 t … 256 t + 255 of argument 0. -/
theorem blk1_0 (t : Fin cfg1.N) (p : Fin 256) (k : Fin 1024) (r : Fin 8192) (hr : r.val = 256 * t.val + p.val) :
    (iblk1 (E2 m) c 0 t : S256x1024.Idx → EReal) (ix2 p k)
      = (m ((c.tc : Thread nD τ).loc main_arg0) : S8192x1024.Idx → EReal) (ix2 r k) := by
  unfold iblk1
  rw [View.read_apply]
  show E2 m c main_arg0 _ = _
  rw [E2_arg0]
  congr 1
  funext a
  apply Fin.ext
  match a with
  | ⟨0, _⟩ => show win1_0.index t (0 : Fin 2) * 256 + 1 * p.val = r.val; rw [(idx1 t).1, hr]; omega
  | ⟨1, _⟩ => show win1_0.index t (1 : Fin 2) * 1024 + 1 * k.val = k.val; rw [(idx1 t).2.1]; omega

/-- Window 1's block at point `t` is rows 256 t … 256 t + 255 of argument 1. -/
theorem blk1_1 (t : Fin cfg1.N) (p : Fin 256) (k : Fin 1024) (r : Fin 8192) (hr : r.val = 256 * t.val + p.val) :
    (iblk1 (E2 m) c 1 t : S256x1024.Idx → EReal) (ix2 p k)
      = (m ((c.tc : Thread nD τ).loc main_arg1) : S8192x1024.Idx → EReal) (ix2 r k) := by
  unfold iblk1
  rw [View.read_apply]
  show E2 m c main_arg1 _ = _
  rw [E2_arg1]
  congr 1
  funext a
  apply Fin.ext
  match a with
  | ⟨0, _⟩ => show win1_1.index t (0 : Fin 2) * 256 + 1 * p.val = r.val; rw [(idx1 t).2.2.1, hr]; omega
  | ⟨1, _⟩ => show win1_1.index t (1 : Fin 2) * 1024 + 1 * k.val = k.val; rw [(idx1 t).2.2.2.1]; omega

/-- Window 2 stages its whole array at every point. -/
theorem blk1_2 (t : Fin cfg1.N) (k : Fin 1024) (j : Fin 4096) :
    (iblk1 (E2 m) c 2 t : S1024x4096.Idx → EReal) (ix2 k j)
      = (V1 m c (Proc.devRef .tc main_v11) : S1024x4096.Idx → EReal) (ix2 k j) := by
  unfold iblk1
  rw [View.read_apply]
  show E2 m c main_v11 _ = _
  rw [E2_v11]
  congr 1
  funext x
  apply Fin.ext
  match x with
  | ⟨0, _⟩ => show win1_2.index t (0 : Fin 2) * 1024 + 1 * k.val = k.val; rw [(idx1 t).2.2.2.2.2.2.1]; omega
  | ⟨1, _⟩ => show win1_2.index t (1 : Fin 2) * 4096 + 1 * j.val = j.val; rw [(idx1 t).2.2.2.2.2.2.2.1]; omega

/-- Window 3 stages its whole array at every point. -/
theorem blk1_3 (t : Fin cfg1.N) (k : Fin 1024) (j : Fin 4096) :
    (iblk1 (E2 m) c 3 t : S1024x4096.Idx → EReal) (ix2 k j)
      = (V1 m c (Proc.devRef .tc main_v14) : S1024x4096.Idx → EReal) (ix2 k j) := by
  unfold iblk1
  rw [View.read_apply]
  show E2 m c main_v14 _ = _
  rw [E2_v14]
  congr 1
  funext x
  apply Fin.ext
  match x with
  | ⟨0, _⟩ => show win1_3.index t (0 : Fin 2) * 1024 + 1 * k.val = k.val; rw [(idx1 t).2.2.2.2.2.2.2.2.1]; omega
  | ⟨1, _⟩ => show win1_3.index t (1 : Fin 2) * 4096 + 1 * j.val = j.val; rw [(idx1 t).2.2.2.2.2.2.2.2.2.1]; omega

/-- Window 4 stages its whole array at every point. -/
theorem blk1_4 (t : Fin cfg1.N) (k : Fin 1) (j : Fin 4096) :
    (iblk1 (E2 m) c 4 t : S1x4096.Idx → EReal) (ix2 k j)
      = (V1 m c (Proc.devRef .tc main_v15) : S1x4096.Idx → EReal) (ix2 k j) := by
  unfold iblk1
  rw [View.read_apply]
  show E2 m c main_v15 _ = _
  rw [E2_v15]
  congr 1
  funext x
  apply Fin.ext
  match x with
  | ⟨0, _⟩ => show win1_4.index t (0 : Fin 2) * 1 + 1 * k.val = k.val; rw [(idx1 t).2.2.2.2.2.2.2.2.2.2.1]; omega
  | ⟨1, _⟩ => show win1_4.index t (1 : Fin 2) * 4096 + 1 * j.val = j.val; rw [(idx1 t).2.2.2.2.2.2.2.2.2.2.2]; omega

/-! ## The body's z at a block entry is the specification's pre-activation -/

/-- First kernel: at row p of point t's block, column 1024 g + q of z is gate g's unit q at row 128 t + p. -/
theorem z0_eq (t : Fin cfg0.N) (p : Fin 128) (g : Fin 6) (q : Fin 1024) (j : Fin 6144) (hj : j.val = 1024 * g.val + q.val)
    (r : Fin 8192) (hr : r.val = 128 * t.val + p.val) :
    Spec.zblk (iblk0 (E1 m) c 0 t) (iblk0 (E1 m) c 1 t) (iblk0 (E1 m) c 4 t) (iblk0 (E1 m) c 5 t) (iblk0 (E1 m) c 6 t) p j
      = Spec.pre (m ((c.tc : Thread nD τ).loc main_arg0)) (m ((c.tc : Thread nD τ).loc main_arg1)) (Wg m c g) (bg m c g) r q := by
  have hlt : 1024 * g.val + q.val < 6144 := by have := g.isLt; have := q.isLt; omega
  have e : j = ⟨1024 * g.val + q.val, hlt⟩ := Fin.ext hj
  rw [e]
  unfold Spec.zblk Spec.pre
  refine congrArg₂ (· + ·) (congrArg₂ (· + ·) ?_ ?_) ?_
  · refine Finset.sum_congr rfl fun k _ => ?_
    rw [blk0_0 m c t p k r hr, blk0_4 m c t k _, wx1_apply m c g k q]
  · refine Finset.sum_congr rfl fun k _ => ?_
    rw [blk0_1 m c t p k r hr, blk0_5 m c t k _, wh1_apply m c g k q]
  · rw [blk0_6 m c t 0 _, b1_apply m c g q]

/-- Second kernel: at row p of point t's block, column j of z is decay unit j at row 256 t + p. -/
theorem z1_eq (t : Fin cfg1.N) (p : Fin 256) (j : Fin 4096) (r : Fin 8192) (hr : r.val = 256 * t.val + p.val) :
    Spec.zblk (iblk1 (E2 m) c 0 t) (iblk1 (E2 m) c 1 t) (iblk1 (E2 m) c 2 t) (iblk1 (E2 m) c 3 t) (iblk1 (E2 m) c 4 t) p j
      = Spec.pre (m ((c.tc : Thread nD τ).loc main_arg0)) (m ((c.tc : Thread nD τ).loc main_arg1)) (m ((c.tc : Thread nD τ).loc main_arg16)) (m ((c.tc : Thread nD τ).loc main_arg17)) r j := by
  unfold Spec.zblk Spec.pre
  refine congrArg₂ (· + ·) (congrArg₂ (· + ·) ?_ ?_) ?_
  · refine Finset.sum_congr rfl fun k _ => ?_
    rw [blk1_0 m c t p k r hr, blk1_2 m c t k j, wx2_apply m c k j]
  · refine Finset.sum_congr rfl fun k _ => ?_
    rw [blk1_1 m c t p k r hr, blk1_3 m c t k j, wh2_apply m c k j]
  · rw [blk1_4 m c t 0 j, b2_apply m c j]

/-! ## Each output array after the run -/

/-- The first new cell state: forget gate on the previous state, input gate on the candidate -/
abbrev G7 : S8192x1024.Idx → EReal := Spec.cell (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg4)) (m ((c.tc : Thread nD τ).loc main_arg5)) (m ((c.tc : Thread nD τ).loc main_arg14)) (m ((c.tc : Thread nD τ).loc main_arg15))

/-- What point `t` writes back to window 7 is the block of that array at the point. -/
theorem flushed0_7_eq (t : Fin cfg0.N) :
    (dat0 (E1 m) c).flushed 7 t = ((cfg0.win 7).blk t).view.read (Elt Ideal) (G7 m c) := by
  show (cfg0.win 7).cut (grid0.coords t) ((dat0 (E1 m) c).after 7 t) = _
  rw [after0_7]
  unfold out0_7
  rw [View.canon_unit_zero hz]
  simp only [View.ld_unit_zero (S := S128x1024) hz, View.ld_unit_zero (S := S1024x6144) hz, View.ld_unit_zero (S := S1x6144) hz]
  funext y
  obtain ⟨p, q, rfl⟩ : ∃ (p : Fin 128) (q : Fin 1024), y = ix2 p q := ⟨y 0, y 1, eq_ix2 y⟩
  have hN : cfg0.N = 64 := N_0
  have ht := t.isLt
  refine (pay4_apply _ _ _ _ _ _ p q).trans ?_
  rw [View.read_apply]
  obtain ⟨r, hr⟩ : ∃ r : Fin 8192, r.val = 128 * t.val + p.val := ⟨⟨128 * t.val + p.val, by omega⟩, rfl⟩
  have hemb : ((cfg0.win 7).blk t).view.emb (ix2 p q : S128x1024.Idx)
      = (ix2 r q : S8192x1024.Idx) := by
    funext a
    apply Fin.ext
    match a with
    | ⟨0, _⟩ => show win0_7.index t (0 : Fin 2) * 128 + 1 * p.val = r.val; rw [(idx0 t).2.2.2.2.2.2.2.2.1, hr]; omega
    | ⟨1, _⟩ => show win0_7.index t (1 : Fin 2) * 1024 + 1 * q.val = q.val; rw [(idx0 t).2.2.2.2.2.2.2.2.2.1]; omega
  rw [hemb]
  refine Eq.trans ?_ (Spec.cell_ix2 _ _ _ _ _ _ _ _ _ _ _).symm
  unfold Spec.cellAt
  rw [z0_eq m c t p 1 q _ (show (1024 + q.val) = 1024 * ((1 : Fin 6) : ℕ) + q.val from by show 1024 + q.val = 1024 * 1 + q.val; omega) r hr, z0_eq m c t p 0 q _ (show (q.val) = 1024 * ((0 : Fin 6) : ℕ) + q.val from by show q.val = 1024 * 0 + q.val; omega) r hr,
    z0_eq m c t p 5 q _ (show (5120 + q.val) = 1024 * ((5 : Fin 6) : ℕ) + q.val from by show 5120 + q.val = 1024 * 5 + q.val; omega) r hr, blk0_2 m c t p q r hr]
  rfl

/-- An index of the array is in point `t`'s block of window 7 iff each coordinate is in the block's range. -/
theorem mem_blk0_7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v16_0).slice (win0_7.rect t)).set ↔ _
  rw [View.set_slice_whole, Rect.mem_set_unit]
  exact Iff.rfl

/-- The blocks tile the array: row r lies in the block of point r / 128. -/
theorem cover0_7 (i : S8192x1024.Idx) :
    ∃ t : Fin cfg0.N, (cfg0.win 7).flush t = true ∧ i ∈ ((cfg0.win 7).blk t).view.set := by
  have hN : cfg0.N = 64 := N_0
  have hi0 : (i 0).val < 8192 := (i 0).isLt
  have hi1 : (i 1).val < 1024 := (i 1).isLt
  obtain ⟨t, ht⟩ : ∃ t : Fin cfg0.N, t.val = (i 0).val / 128 := ⟨⟨(i 0).val / 128, by omega⟩, rfl⟩
  refine ⟨t, flush0_7 t, ?_⟩
  rw [mem_blk0_7]
  intro a
  match a with
  | ⟨0, _⟩ => show win0_7.index t (0 : Fin 2) * 128 ≤ (i 0).val ∧ (i 0).val < win0_7.index t (0 : Fin 2) * 128 + 128; rw [(idx0 t).2.2.2.2.2.2.2.2.1]; omega
  | ⟨1, _⟩ => show win0_7.index t (1 : Fin 2) * 1024 ≤ (i 1).val ∧ (i 1).val < win0_7.index t (1 : Fin 2) * 1024 + 1024; rw [(idx0 t).2.2.2.2.2.2.2.2.2.1]; omega

/-- So the array ends holding it. -/
theorem final0_7 : (dat0 (E1 m) c).arrAt 7 cfg0.N = G7 m c :=
  (dat0 (E1 m) c).arrAt_eq_of_cover 7 (G7 m c) (fun t _ => flushed0_7_eq m c t) (cover0_7)

/-- The second new cell state, with the barred gates and the barred previous state -/
abbrev G8 : S8192x1024.Idx → EReal := Spec.cell (m ((c.tc : Thread nD τ).loc main_arg0)) (m ((c.tc : Thread nD τ).loc main_arg1)) (m ((c.tc : Thread nD τ).loc main_arg3)) (m ((c.tc : Thread nD τ).loc main_arg12)) (m ((c.tc : Thread nD τ).loc main_arg13)) (m ((c.tc : Thread nD τ).loc main_arg10)) (m ((c.tc : Thread nD τ).loc main_arg11)) (m ((c.tc : Thread nD τ).loc main_arg14)) (m ((c.tc : Thread nD τ).loc main_arg15))

/-- What point `t` writes back to window 8 is the block of that array at the point. -/
theorem flushed0_8_eq (t : Fin cfg0.N) :
    (dat0 (E1 m) c).flushed 8 t = ((cfg0.win 8).blk t).view.read (Elt Ideal) (G8 m c) := by
  show (cfg0.win 8).cut (grid0.coords t) ((dat0 (E1 m) c).after 8 t) = _
  rw [after0_8]
  unfold out0_8
  rw [View.canon_unit_zero hz]
  simp only [View.ld_unit_zero (S := S128x1024) hz, View.ld_unit_zero (S := S1024x6144) hz, View.ld_unit_zero (S := S1x6144) hz]
  funext y
  obtain ⟨p, q, rfl⟩ : ∃ (p : Fin 128) (q : Fin 1024), y = ix2 p q := ⟨y 0, y 1, eq_ix2 y⟩
  have hN : cfg0.N = 64 := N_0
  have ht := t.isLt
  refine (pay5_apply _ _ _ _ _ _ p q).trans ?_
  rw [View.read_apply]
  obtain ⟨r, hr⟩ : ∃ r : Fin 8192, r.val = 128 * t.val + p.val := ⟨⟨128 * t.val + p.val, by omega⟩, rfl⟩
  have hemb : ((cfg0.win 8).blk t).view.emb (ix2 p q : S128x1024.Idx)
      = (ix2 r q : S8192x1024.Idx) := by
    funext a
    apply Fin.ext
    match a with
    | ⟨0, _⟩ => show win0_8.index t (0 : Fin 2) * 128 + 1 * p.val = r.val; rw [(idx0 t).2.2.2.2.2.2.2.2.2.2.1, hr]; omega
    | ⟨1, _⟩ => show win0_8.index t (1 : Fin 2) * 1024 + 1 * q.val = q.val; rw [(idx0 t).2.2.2.2.2.2.2.2.2.2.2.1]; omega
  rw [hemb]
  refine Eq.trans ?_ (Spec.cell_ix2 _ _ _ _ _ _ _ _ _ _ _).symm
  unfold Spec.cellAt
  rw [z0_eq m c t p 4 q _ (show (4096 + q.val) = 1024 * ((4 : Fin 6) : ℕ) + q.val from by show 4096 + q.val = 1024 * 4 + q.val; omega) r hr, z0_eq m c t p 3 q _ (show (3072 + q.val) = 1024 * ((3 : Fin 6) : ℕ) + q.val from by show 3072 + q.val = 1024 * 3 + q.val; omega) r hr,
    z0_eq m c t p 5 q _ (show (5120 + q.val) = 1024 * ((5 : Fin 6) : ℕ) + q.val from by show 5120 + q.val = 1024 * 5 + q.val; omega) r hr, blk0_3 m c t p q r hr]
  rfl

/-- An index of the array is in point `t`'s block of window 8 iff each coordinate is in the block's range. -/
theorem mem_blk0_8 (t : Fin cfg0.N) (i : S8192x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v16_1).slice (win0_8.rect t)).set ↔ _
  rw [View.set_slice_whole, Rect.mem_set_unit]
  exact Iff.rfl

/-- The blocks tile the array: row r lies in the block of point r / 128. -/
theorem cover0_8 (i : S8192x1024.Idx) :
    ∃ t : Fin cfg0.N, (cfg0.win 8).flush t = true ∧ i ∈ ((cfg0.win 8).blk t).view.set := by
  have hN : cfg0.N = 64 := N_0
  have hi0 : (i 0).val < 8192 := (i 0).isLt
  have hi1 : (i 1).val < 1024 := (i 1).isLt
  obtain ⟨t, ht⟩ : ∃ t : Fin cfg0.N, t.val = (i 0).val / 128 := ⟨⟨(i 0).val / 128, by omega⟩, rfl⟩
  refine ⟨t, flush0_8 t, ?_⟩
  rw [mem_blk0_8]
  intro a
  match a with
  | ⟨0, _⟩ => show win0_8.index t (0 : Fin 2) * 128 ≤ (i 0).val ∧ (i 0).val < win0_8.index t (0 : Fin 2) * 128 + 128; rw [(idx0 t).2.2.2.2.2.2.2.2.2.2.1]; omega
  | ⟨1, _⟩ => show win0_8.index t (1 : Fin 2) * 1024 ≤ (i 1).val ∧ (i 1).val < win0_8.index t (1 : Fin 2) * 1024 + 1024; rw [(idx0 t).2.2.2.2.2.2.2.2.2.2.2.1]; omega

/-- So the array ends holding it. -/
theorem final0_8 : (dat0 (E1 m) c).arrAt 8 cfg0.N = G8 m c :=
  (dat0 (E1 m) c).arrAt_eq_of_cover 8 (G8 m c) (fun t _ => flushed0_8_eq m c t) (cover0_8)

/-- The output gate -/
abbrev G9 : S8192x1024.Idx → EReal := Spec.go (m ((c.tc : Thread nD τ).loc main_arg0)) (m ((c.tc : Thread nD τ).loc main_arg1)) (m ((c.tc : Thread nD τ).loc main_arg8)) (m ((c.tc : Thread nD τ).loc main_arg9))

/-- What point `t` writes back to window 9 is the block of that array at the point. -/
theorem flushed0_9_eq (t : Fin cfg0.N) :
    (dat0 (E1 m) c).flushed 9 t = ((cfg0.win 9).blk t).view.read (Elt Ideal) (G9 m c) := by
  show (cfg0.win 9).cut (grid0.coords t) ((dat0 (E1 m) c).after 9 t) = _
  rw [after0_9]
  unfold out0_9
  rw [View.canon_unit_zero hz]
  simp only [View.ld_unit_zero (S := S128x1024) hz, View.ld_unit_zero (S := S1024x6144) hz, View.ld_unit_zero (S := S1x6144) hz]
  funext y
  obtain ⟨p, q, rfl⟩ : ∃ (p : Fin 128) (q : Fin 1024), y = ix2 p q := ⟨y 0, y 1, eq_ix2 y⟩
  have hN : cfg0.N = 64 := N_0
  have ht := t.isLt
  refine (pay2_apply _ _ _ _ _ p q).trans ?_
  rw [View.read_apply]
  obtain ⟨r, hr⟩ : ∃ r : Fin 8192, r.val = 128 * t.val + p.val := ⟨⟨128 * t.val + p.val, by omega⟩, rfl⟩
  have hemb : ((cfg0.win 9).blk t).view.emb (ix2 p q : S128x1024.Idx)
      = (ix2 r q : S8192x1024.Idx) := by
    funext a
    apply Fin.ext
    match a with
    | ⟨0, _⟩ => show win0_9.index t (0 : Fin 2) * 128 + 1 * p.val = r.val; rw [(idx0 t).2.2.2.2.2.2.2.2.2.2.2.2.1, hr]; omega
    | ⟨1, _⟩ => show win0_9.index t (1 : Fin 2) * 1024 + 1 * q.val = q.val; rw [(idx0 t).2.2.2.2.2.2.2.2.2.2.2.2.2.1]; omega
  rw [hemb]
  refine Eq.trans ?_ (Spec.go_ix2 _ _ _ _ _ _).symm
  unfold Spec.goAt
  rw [z0_eq m c t p 2 q _ (show (2048 + q.val) = 1024 * ((2 : Fin 6) : ℕ) + q.val from by show 2048 + q.val = 1024 * 2 + q.val; omega) r hr]
  rfl

/-- An index of the array is in point `t`'s block of window 9 iff each coordinate is in the block's range. -/
theorem mem_blk0_9 (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v16_2).slice (win0_9.rect t)).set ↔ _
  rw [View.set_slice_whole, Rect.mem_set_unit]
  exact Iff.rfl

/-- The blocks tile the array: row r lies in the block of point r / 128. -/
theorem cover0_9 (i : S8192x1024.Idx) :
    ∃ t : Fin cfg0.N, (cfg0.win 9).flush t = true ∧ i ∈ ((cfg0.win 9).blk t).view.set := by
  have hN : cfg0.N = 64 := N_0
  have hi0 : (i 0).val < 8192 := (i 0).isLt
  have hi1 : (i 1).val < 1024 := (i 1).isLt
  obtain ⟨t, ht⟩ : ∃ t : Fin cfg0.N, t.val = (i 0).val / 128 := ⟨⟨(i 0).val / 128, by omega⟩, rfl⟩
  refine ⟨t, flush0_9 t, ?_⟩
  rw [mem_blk0_9]
  intro a
  match a with
  | ⟨0, _⟩ => show win0_9.index t (0 : Fin 2) * 128 ≤ (i 0).val ∧ (i 0).val < win0_9.index t (0 : Fin 2) * 128 + 128; rw [(idx0 t).2.2.2.2.2.2.2.2.2.2.2.2.1]; omega
  | ⟨1, _⟩ => show win0_9.index t (1 : Fin 2) * 1024 ≤ (i 1).val ∧ (i 1).val < win0_9.index t (1 : Fin 2) * 1024 + 1024; rw [(idx0 t).2.2.2.2.2.2.2.2.2.2.2.2.2.1]; omega

/-- So the array ends holding it. -/
theorem final0_9 : (dat0 (E1 m) c).arrAt 9 cfg0.N = G9 m c :=
  (dat0 (E1 m) c).arrAt_eq_of_cover 9 (G9 m c) (fun t _ => flushed0_9_eq m c t) (cover0_9)

/-- The decay rates, flat -/
abbrev G17 : S8192x4096.Idx → EReal := Spec.decay (m ((c.tc : Thread nD τ).loc main_arg0)) (m ((c.tc : Thread nD τ).loc main_arg1)) (m ((c.tc : Thread nD τ).loc main_arg16)) (m ((c.tc : Thread nD τ).loc main_arg17))

/-- What point `t` writes back to window 5 is the block of that array at the point. -/
theorem flushed1_5_eq (t : Fin cfg1.N) :
    (dat1 (E2 m) c).flushed 5 t = ((cfg1.win 5).blk t).view.read (Elt Ideal) (G17 m c) := by
  show (cfg1.win 5).cut (grid1.coords t) ((dat1 (E2 m) c).after 5 t) = _
  rw [after1_5]
  unfold out1_5
  rw [View.canon_unit_zero hz]
  simp only [View.ld_unit_zero (S := S256x1024) hz, View.ld_unit_zero (S := S1024x4096) hz, View.ld_unit_zero (S := S1x4096) hz]
  funext y
  obtain ⟨p, q, rfl⟩ : ∃ (p : Fin 256) (q : Fin 4096), y = ix2 p q := ⟨y 0, y 1, eq_ix2 y⟩
  have hN : cfg1.N = 32 := N_1
  have ht := t.isLt
  refine (pay1_apply _ _ _ _ _ p q).trans ?_
  rw [View.read_apply]
  obtain ⟨r, hr⟩ : ∃ r : Fin 8192, r.val = 256 * t.val + p.val := ⟨⟨256 * t.val + p.val, by omega⟩, rfl⟩
  have hemb : ((cfg1.win 5).blk t).view.emb (ix2 p q : S256x4096.Idx)
      = (ix2 r q : S8192x4096.Idx) := by
    funext a
    apply Fin.ext
    match a with
    | ⟨0, _⟩ => show win1_5.index t (0 : Fin 2) * 256 + 1 * p.val = r.val; rw [(idx1 t).2.2.2.2.1, hr]; omega
    | ⟨1, _⟩ => show win1_5.index t (1 : Fin 2) * 4096 + 1 * q.val = q.val; rw [(idx1 t).2.2.2.2.2.1]; omega
  rw [hemb]
  refine Eq.trans ?_ (Spec.decay_ix2 _ _ _ _ _ _).symm
  unfold Spec.decayAt
  rw [z1_eq m c t p q r hr]

/-- An index of the array is in point `t`'s block of window 5 iff each coordinate is in the block's range. -/
theorem mem_blk1_5 (t : Fin cfg1.N) (i : S8192x4096.Idx) :
    i ∈ ((cfg1.win 5).blk t).view.set ↔ ∀ a : Fin 2, win1_5.index t a * S256x4096.size a ≤ (i a).val ∧ (i a).val < win1_5.index t a * S256x4096.size a + S256x4096.size a := by
  show i ∈ ((View.whole main_v17).slice (win1_5.rect t)).set ↔ _
  rw [View.set_slice_whole, Rect.mem_set_unit]
  exact Iff.rfl

/-- The blocks tile the array: row r lies in the block of point r / 256. -/
theorem cover1_5 (i : S8192x4096.Idx) :
    ∃ t : Fin cfg1.N, (cfg1.win 5).flush t = true ∧ i ∈ ((cfg1.win 5).blk t).view.set := by
  have hN : cfg1.N = 32 := N_1
  have hi0 : (i 0).val < 8192 := (i 0).isLt
  have hi1 : (i 1).val < 4096 := (i 1).isLt
  obtain ⟨t, ht⟩ : ∃ t : Fin cfg1.N, t.val = (i 0).val / 256 := ⟨⟨(i 0).val / 256, by omega⟩, rfl⟩
  refine ⟨t, flush1_5 t, ?_⟩
  rw [mem_blk1_5]
  intro a
  match a with
  | ⟨0, _⟩ => show win1_5.index t (0 : Fin 2) * 256 ≤ (i 0).val ∧ (i 0).val < win1_5.index t (0 : Fin 2) * 256 + 256; rw [(idx1 t).2.2.2.2.1]; omega
  | ⟨1, _⟩ => show win1_5.index t (1 : Fin 2) * 4096 ≤ (i 1).val ∧ (i 1).val < win1_5.index t (1 : Fin 2) * 4096 + 4096; rw [(idx1 t).2.2.2.2.2.1]; omega

/-- So the array ends holding it. -/
theorem final1_5 : (dat1 (E2 m) c).arrAt 5 cfg1.N = G17 m c :=
  (dat1 (E2 m) c).arrAt_eq_of_cover 5 (G17 m c) (fun t _ => flushed1_5_eq m c t) (cover1_5)

/-! ## The run, read -/

/-- Every weakly fair execution of the idealized kernel program terminates with its four results at the
    specification's arrays of the launch contents of the arguments, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v16_0) = G7 m c
      ∧ r.2.mem ((c.tc : Thread nD τ).loc main_v16_1) = G8 m c
      ∧ r.2.mem ((c.tc : Thread nD τ).loc main_v18) = shapeCast S8192x1024x4 (G17 m c) shapeCasts_S8192x4096_S8192x1024x4
      ∧ r.2.mem ((c.tc : Thread nD τ).loc main_v16_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨(h c).1.trans (final0_7 m c),
     (h c).2.1.trans (final0_8 m c),
     (h c).2.2.1.trans (congrArg (fun A => shapeCast S8192x1024x4 A shapeCasts_S8192x4096_S8192x1024x4) (final1_5 m c)),
     (h c).2.2.2.1.trans (final0_9 m c),
     (h c).2.2.2.2⟩)
    (Run.run_results m ρ)

end Cert.KernelIdeal.Values

end
-- ==== Proof.RefValue.lean ====
/-
  The reference program's results as the specification's arrays.

  The reference joins x and h along the columns, the seven weight matrices along the rows, transposes,
  and forms one matrix product plus the joined bias.  Entry (r, j) of that product is the sum over
  k < 2048 of xh[r, k] W[j, k], which splits at k = 1024 into the x-part and the h-part of
  `Spec.pre`; column window g of the result reads unit q of weight matrix g.  The sigmoid is spelt
  1 / (1 + exp(-z)) with the literal 1.0, which is the real one; the softplus is the specification's
  form with a negation where the kernel subtracts from zero, and its not-a-number guard compares a
  value with itself, which is never unequal on the extended reals.
-/
import proofs.«166638_j39719857553628_1_alg».proof.Proof.Gen.ReferenceIdeal.Read
import proofs.«166638_j39719857553628_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
  Idealize.ShloMosaic.ValueIdx

open Cert.ReferenceIdeal.Read

/-- A sum over 2048 terms is the sum of its first 1024 and its last 1024. -/
theorem sum_split (f : Fin 2048 → EReal) :
    ∑ k : Fin 2048, f k
      = (∑ k : Fin 1024, f ⟨k.val, by omega⟩) + ∑ k : Fin 1024, f ⟨1024 + k.val, by omega⟩ :=
  Fin.sum_univ_add (a := 1024) (b := 1024) f

/-- The left operand's index of the product at (r, col), term k, is (r, k). -/
theorem lidx_ix2 (r : Fin 8192) (col : Fin 10240) (k : Fin 2048) :
    lidx_main_v4 (ix2 r col) k = ix2 r k := by
  funext a; match a with | ⟨0, _⟩ => rfl | ⟨1, _⟩ => rfl

/-- The transposed right operand's index of the product at (r, col), term k, read before the transpose, is (col, k). -/
theorem ridx_ix2 (r : Fin 8192) (col : Fin 10240) (k : Fin 2048) :
    idx_main_v3 (ridx_main_v4 (ix2 r col) k) = ix2 col k := by
  funext a; match a with | ⟨0, _⟩ => rfl | ⟨1, _⟩ => rfl

/-- The bias broadcast over rows, read at (r, col), is the joined bias at col. -/
theorem bidx_ix2 (r : Fin 8192) (col : Fin 10240) :
    idx_main_v5 (idx_main_v6 (ix2 r col)) = ix1 col := by
  funext a; match a with | ⟨0, _⟩ => rfl

section Args

variable (x0 x1 : Spec.Mat 8192 1024)

/-- x joined with h along the columns, read in the first 1024 columns, is x. -/
theorem v0_left (r : Fin 8192) (k : Fin 1024) :
    val_main_v0 (F := Ideal) x0 x1 (ix2 r (⟨k.val, by omega⟩ : Fin 2048)) = x0 (ix2 r k) := by
  unfold val_main_v0
  exact concatenate_pair_apply_left (1 : Fin 2) x0 x1 concatenates_S8192x1024_S8192x1024_S8192x2048_d1
    (ix2 r (⟨k.val, by omega⟩ : Fin 2048)) rfl (ix2 r k)
    (fun b => match b with | ⟨0, _⟩ => rfl | ⟨1, _⟩ => rfl)

/-- x joined with h along the columns, read in the last 1024 columns, is h. -/
theorem v0_right (r : Fin 8192) (k : Fin 1024) :
    val_main_v0 (F := Ideal) x0 x1 (ix2 r (⟨1024 + k.val, by omega⟩ : Fin 2048)) = x1 (ix2 r k) := by
  unfold val_main_v0
  exact concatenate_pair_apply_right (1 : Fin 2) x0 x1 concatenates_S8192x1024_S8192x1024_S8192x2048_d1
    (ix2 r (⟨1024 + k.val, by omega⟩ : Fin 2048)) rfl rfl (ix2 r k)
    (fun b => match b with | ⟨0, _⟩ => fun _ => rfl | ⟨1, _⟩ => fun h => absurd rfl h)
    (by show k.val + 1024 = 1024 + k.val; omega)

end Args

section Weights

variable (x4 x6 x8 x10 x12 x14 : Spec.Mat 1024 2048) (x16 : Spec.Mat 4096 2048)

/-- The seven weight matrices joined along the rows: row `1024 g + q` of the join is row `q` of piece `g`
    (the six pieces before the last have 1024 rows each). -/
theorem v1_piece (g : Nat) (hg : g < 7) (n : Nat) (W : Spec.Mat n 2048)
    (hx : ([⟨S1024x2048, x4⟩, ⟨S1024x2048, x6⟩, ⟨S1024x2048, x8⟩, ⟨S1024x2048, x10⟩, ⟨S1024x2048, x12⟩,
        ⟨S1024x2048, x14⟩, ⟨S4096x2048, x16⟩] : List ((s : Shape) × (s.Idx → EReal)))[g]'(by simpa using hg)
      = ⟨⟨2, ![n, 2048]⟩, W⟩)
    (q : Fin n) (col : Fin 10240) (hcol : 1024 * g + q.val = col.val) (k : Fin 2048) :
    val_main_v1 (F := Ideal) x4 x6 x8 x10 x12 x14 x16 (ix2 col k) = W (ix2 q k) := by
  unfold val_main_v1
  exact concatenate_apply_piece (t := S10240x2048) (0 : Fin S10240x2048.rank)
    ([⟨S1024x2048, x4⟩, ⟨S1024x2048, x6⟩, ⟨S1024x2048, x8⟩, ⟨S1024x2048, x10⟩, ⟨S1024x2048, x12⟩,
        ⟨S1024x2048, x14⟩, ⟨S4096x2048, x16⟩] : List ((s : Shape) × (s.Idx → EReal)))
    concatenates_S1024x2048_S1024x2048_S1024x2048_S1024x2048_S1024x2048_S1024x2048_S4096x2048_S10240x2048_d0
    (ix2 col k) g (by simpa using hg) ⟨2, ![n, 2048]⟩ W hx rfl (1024 * g)
    (by interval_cases g <;> rfl) (ix2 q k)
    (fun b => match b with | ⟨0, _⟩ => fun h => absurd rfl h | ⟨1, _⟩ => fun _ => rfl)
    hcol

end Weights

section Biases

variable (x5 x7 x9 x11 x13 x15 : Spec.Arr 1024) (x17 : Spec.Arr 4096)

/-- The seven biases joined: entry `1024 g + q` of the join is entry `q` of piece `g`. -/
theorem v2_piece (g : Nat) (hg : g < 7) (n : Nat) (b : Spec.Arr n)
    (hx : ([⟨S1024, x5⟩, ⟨S1024, x7⟩, ⟨S1024, x9⟩, ⟨S1024, x11⟩, ⟨S1024, x13⟩, ⟨S1024, x15⟩,
        ⟨S4096, x17⟩] : List ((s : Shape) × (s.Idx → EReal)))[g]'(by simpa using hg)
      = ⟨⟨1, ![n]⟩, b⟩)
    (q : Fin n) (col : Fin 10240) (hcol : 1024 * g + q.val = col.val) :
    val_main_v2 (F := Ideal) x5 x7 x9 x11 x13 x15 x17 (ix1 col) = b (ix1 q) := by
  unfold val_main_v2
  exact concatenate_apply_piece (t := S10240) (0 : Fin S10240.rank)
    ([⟨S1024, x5⟩, ⟨S1024, x7⟩, ⟨S1024, x9⟩, ⟨S1024, x11⟩, ⟨S1024, x13⟩, ⟨S1024, x15⟩,
        ⟨S4096, x17⟩] : List ((s : Shape) × (s.Idx → EReal)))
    concatenates_S1024_S1024_S1024_S1024_S1024_S1024_S4096_S10240_d0
    (ix1 col) g (by simpa using hg) ⟨1, ![n]⟩ b hx rfl (1024 * g)
    (by interval_cases g <;> rfl) (ix1 q)
    (fun b => match b with | ⟨0, _⟩ => fun h => absurd rfl h)
    hcol

end Biases

section Pre

variable (x0 x1 : Spec.Mat 8192 1024)
  (x4 : Spec.Mat 1024 2048) (x5 : Spec.Arr 1024) (x6 : Spec.Mat 1024 2048) (x7 : Spec.Arr 1024)
  (x8 : Spec.Mat 1024 2048) (x9 : Spec.Arr 1024) (x10 : Spec.Mat 1024 2048) (x11 : Spec.Arr 1024)
  (x12 : Spec.Mat 1024 2048) (x13 : Spec.Arr 1024) (x14 : Spec.Mat 1024 2048) (x15 : Spec.Arr 1024)
  (x16 : Spec.Mat 4096 2048) (x17 : Spec.Arr 4096)

/-- The joined product plus the joined bias at (r, 1024 g + q) is unit `q`'s pre-activation with piece `g`'s
    weights and bias: the sum over 2048 splits at 1024 into the x-part and the h-part. -/
theorem v7_pre (g : Nat) (hg : g < 7) (n : Nat) (W : Spec.Mat n 2048) (b : Spec.Arr n)
    (hW : ([⟨S1024x2048, x4⟩, ⟨S1024x2048, x6⟩, ⟨S1024x2048, x8⟩, ⟨S1024x2048, x10⟩, ⟨S1024x2048, x12⟩,
        ⟨S1024x2048, x14⟩, ⟨S4096x2048, x16⟩] : List ((s : Shape) × (s.Idx → EReal)))[g]'(by simpa using hg)
      = ⟨⟨2, ![n, 2048]⟩, W⟩)
    (hb : ([⟨S1024, x5⟩, ⟨S1024, x7⟩, ⟨S1024, x9⟩, ⟨S1024, x11⟩, ⟨S1024, x13⟩, ⟨S1024, x15⟩,
        ⟨S4096, x17⟩] : List ((s : Shape) × (s.Idx → EReal)))[g]'(by simpa using hg)
      = ⟨⟨1, ![n]⟩, b⟩)
    (r : Fin 8192) (q : Fin n) (col : Fin 10240) (hcol : 1024 * g + q.val = col.val) :
    val_main_v7 (F := Ideal) x0 x1 x4 x5 x6 x7 x8 x9 x10 x11 x12 x13 x14 x15 x16 x17 (ix2 r col)
      = Spec.pre x0 x1 W b r q := by
  rw [val_main_v7_apply, val_main_v4_apply, val_main_v6_apply, val_main_v5_apply, bidx_ix2,
    v2_piece x5 x7 x9 x11 x13 x15 x17 g hg n b hb q col hcol, sum_split]
  simp only [Ideal.addf_def]
  unfold Spec.pre
  congr 1
  congr 1
  · refine Finset.sum_congr rfl fun k _ => ?_
    rw [lidx_ix2, v0_left, val_main_v3_apply, ridx_ix2,
      v1_piece x4 x6 x8 x10 x12 x14 x16 g hg n W hW q col hcol]
  · refine Finset.sum_congr rfl fun k _ => ?_
    rw [lidx_ix2, v0_right, val_main_v3_apply, ridx_ix2,
      v1_piece x4 x6 x8 x10 x12 x14 x16 g hg n W hW q col hcol]

end Pre

/-- The slices of the joined pre-activation: window `g` of 1024 columns at (r, q) reads column `1024 g + q`;
    the last window of 4096 columns at (r, j) reads column `6144 + j`. -/
theorem idx8_ix2 (r : Fin 8192) (q : Fin 1024) :
    idx_main_v8 (ix2 r q) = ix2 r (⟨q.val, by omega⟩ : Fin 10240) := by
  funext a; match a with | ⟨0, _⟩ => rfl | ⟨1, _⟩ => rfl
theorem idx15_ix2 (r : Fin 8192) (q : Fin 1024) :
    idx_main_v15 (ix2 r q) = ix2 r (⟨1024 + q.val, by omega⟩ : Fin 10240) := by
  funext a; match a with | ⟨0, _⟩ => rfl | ⟨1, _⟩ => rfl
theorem idx22_ix2 (r : Fin 8192) (q : Fin 1024) :
    idx_main_v22 (ix2 r q) = ix2 r (⟨2048 + q.val, by omega⟩ : Fin 10240) := by
  funext a; match a with | ⟨0, _⟩ => rfl | ⟨1, _⟩ => rfl
theorem idx29_ix2 (r : Fin 8192) (q : Fin 1024) :
    idx_main_v29 (ix2 r q) = ix2 r (⟨3072 + q.val, by omega⟩ : Fin 10240) := by
  funext a; match a with | ⟨0, _⟩ => rfl | ⟨1, _⟩ => rfl
theorem idx36_ix2 (r : Fin 8192) (q : Fin 1024) :
    idx_main_v36 (ix2 r q) = ix2 r (⟨4096 + q.val, by omega⟩ : Fin 10240) := by
  funext a; match a with | ⟨0, _⟩ => rfl | ⟨1, _⟩ => rfl
theorem idx43_ix2 (r : Fin 8192) (q : Fin 1024) :
    idx_main_v43 (ix2 r q) = ix2 r (⟨5120 + q.val, by omega⟩ : Fin 10240) := by
  funext a; match a with | ⟨0, _⟩ => rfl | ⟨1, _⟩ => rfl
theorem idx45_ix2 (r : Fin 8192) (j : Fin 4096) :
    idx_main_v45 (ix2 r j) = ix2 r (⟨6144 + j.val, by omega⟩ : Fin 10240) := by
  funext a; match a with | ⟨0, _⟩ => rfl | ⟨1, _⟩ => rfl

/-- 1 / (1 + exp(-z)) with the literal 1.0 is the logistic function: the word of 1.0 is the real one. -/
theorem sigmoid_eq (z : EReal) :
    Ideal.div (Ideal.ofBits .f32 0x3F800000#32) (Ideal.ofBits .f32 0x3F800000#32 + Ideal.exp (-z))
      = Ideal.logistic z := by
  rw [Spec.one_f32]; rfl

/-- No extended real is unequal to itself: the not-a-number guard's condition is false. -/
theorem cmp_une_self (d : Ideal .f32) : FloatOps.cmpf (F := Ideal) .une d d = 0#1 := by
  show BitVec.ofBool (decide (d ≠ d)) = 0#1
  simp

section Results

variable (x0 x1 : Spec.Mat 8192 1024)
  (x4 : Spec.Mat 1024 2048) (x5 : Spec.Arr 1024) (x6 : Spec.Mat 1024 2048) (x7 : Spec.Arr 1024)
  (x8 : Spec.Mat 1024 2048) (x9 : Spec.Arr 1024) (x10 : Spec.Mat 1024 2048) (x11 : Spec.Arr 1024)
  (x12 : Spec.Mat 1024 2048) (x13 : Spec.Arr 1024) (x14 : Spec.Mat 1024 2048) (x15 : Spec.Arr 1024)
  (x16 : Spec.Mat 4096 2048) (x17 : Spec.Arr 4096)

/-- The input gate: the sigmoid of window 0. -/
theorem v14_eq (r : Fin 8192) (q : Fin 1024) :
    val_main_v14 (F := Ideal) x0 x1 x4 x5 x6 x7 x8 x9 x10 x11 x12 x13 x14 x15 x16 x17 (ix2 r q) = Ideal.logistic (Spec.pre x0 x1 x4 x5 r q) := by
  rw [val_main_v14_apply, val_main_v13_apply, val_main_cst_0_apply, val_main_v12_apply, val_main_v11_apply,
    val_main_cst_apply, val_main_v10_apply, val_main_v9_apply, val_main_v8_apply, idx8_ix2,
    v7_pre x0 x1 x4 x5 x6 x7 x8 x9 x10 x11 x12 x13 x14 x15 x16 x17 0 (by decide) 1024 x4 x5 rfl rfl r q _ (by simp)]
  exact sigmoid_eq _

/-- The forget gate: the sigmoid of window 1. -/
theorem v21_eq (r : Fin 8192) (q : Fin 1024) :
    val_main_v21 (F := Ideal) x0 x1 x4 x5 x6 x7 x8 x9 x10 x11 x12 x13 x14 x15 x16 x17 (ix2 r q) = Ideal.logistic (Spec.pre x0 x1 x6 x7 r q) := by
  rw [val_main_v21_apply, val_main_v20_apply, val_main_cst_2_apply, val_main_v19_apply, val_main_v18_apply,
    val_main_cst_1_apply, val_main_v17_apply, val_main_v16_apply, val_main_v15_apply, idx15_ix2,
    v7_pre x0 x1 x4 x5 x6 x7 x8 x9 x10 x11 x12 x13 x14 x15 x16 x17 1 (by decide) 1024 x6 x7 rfl rfl r q _ (by simp)]
  exact sigmoid_eq _

/-- The output gate: the sigmoid of window 2. -/
theorem v28_eq (r : Fin 8192) (q : Fin 1024) :
    val_main_v28 (F := Ideal) x0 x1 x4 x5 x6 x7 x8 x9 x10 x11 x12 x13 x14 x15 x16 x17 (ix2 r q) = Ideal.logistic (Spec.pre x0 x1 x8 x9 r q) := by
  rw [val_main_v28_apply, val_main_v27_apply, val_main_cst_4_apply, val_main_v26_apply, val_main_v25_apply,
    val_main_cst_3_apply, val_main_v24_apply, val_main_v23_apply, val_main_v22_apply, idx22_ix2,
    v7_pre x0 x1 x4 x5 x6 x7 x8 x9 x10 x11 x12 x13 x14 x15 x16 x17 2 (by decide) 1024 x8 x9 rfl rfl r q _ (by simp)]
  exact sigmoid_eq _

/-- The second state's input gate: the sigmoid of window 3. -/
theorem v35_eq (r : Fin 8192) (q : Fin 1024) :
    val_main_v35 (F := Ideal) x0 x1 x4 x5 x6 x7 x8 x9 x10 x11 x12 x13 x14 x15 x16 x17 (ix2 r q) = Ideal.logistic (Spec.pre x0 x1 x10 x11 r q) := by
  rw [val_main_v35_apply, val_main_v34_apply, val_main_cst_6_apply, val_main_v33_apply, val_main_v32_apply,
    val_main_cst_5_apply, val_main_v31_apply, val_main_v30_apply, val_main_v29_apply, idx29_ix2,
    v7_pre x0 x1 x4 x5 x6 x7 x8 x9 x10 x11 x12 x13 x14 x15 x16 x17 3 (by decide) 1024 x10 x11 rfl rfl r q _ (by simp)]
  exact sigmoid_eq _

/-- The second state's forget gate: the sigmoid of window 4. -/
theorem v42_eq (r : Fin 8192) (q : Fin 1024) :
    val_main_v42 (F := Ideal) x0 x1 x4 x5 x6 x7 x8 x9 x10 x11 x12 x13 x14 x15 x16 x17 (ix2 r q) = Ideal.logistic (Spec.pre x0 x1 x12 x13 r q) := by
  rw [val_main_v42_apply, val_main_v41_apply, val_main_cst_8_apply, val_main_v40_apply, val_main_v39_apply,
    val_main_cst_7_apply, val_main_v38_apply, val_main_v37_apply, val_main_v36_apply, idx36_ix2,
    v7_pre x0 x1 x4 x5 x6 x7 x8 x9 x10 x11 x12 x13 x14 x15 x16 x17 4 (by decide) 1024 x12 x13 rfl rfl r q _ (by simp)]
  exact sigmoid_eq _

/-- The candidate: the hyperbolic tangent of window 5. -/
theorem v44_eq (r : Fin 8192) (q : Fin 1024) :
    val_main_v44 (F := Ideal) x0 x1 x4 x5 x6 x7 x8 x9 x10 x11 x12 x13 x14 x15 x16 x17 (ix2 r q) = Ideal.tanh (Spec.pre x0 x1 x14 x15 r q) := by
  rw [val_main_v44_apply, val_main_v43_apply, idx43_ix2,
    v7_pre x0 x1 x4 x5 x6 x7 x8 x9 x10 x11 x12 x13 x14 x15 x16 x17 5 (by decide) 1024 x14 x15 rfl rfl r q _ (by simp)]
  rfl

/-- The decay rates before the reshape: the softplus of the last window, its guard never taken. -/
theorem v50_eq :
    val_main_v50 (F := Ideal) x0 x1 x4 x5 x6 x7 x8 x9 x10 x11 x12 x13 x14 x15 x16 x17 = Spec.decay x0 x1 x16 x17 := by
  funext i
  obtain ⟨r, j, rfl⟩ : ∃ (r : Fin 8192) (j : Fin 4096), i = ix2 r j := ⟨i 0, i 1, eq_ix2 i⟩
  rw [Spec.decay_ix2, val_main_v50_apply, val_main_v49_apply, val_main_cst_10_apply, val_main_v48_apply,
    val_main_call0_v4_apply, cmp_une_self, select_zero, val_main_call0_v11_apply, val_main_call0_v1_apply,
    val_main_call0_v0_apply, val_main_call0_cst_apply, val_main_call0_v10_apply, val_main_call0_v9_apply,
    val_main_call0_v8_apply, val_main_call0_v7_apply, val_main_call0_v3_apply, val_main_call0_v2_apply,
    val_main_call0_cst_apply, val_main_v47_apply, val_main_v46_apply, val_main_cst_9_apply, val_main_v45_apply,
    idx45_ix2, v7_pre x0 x1 x4 x5 x6 x7 x8 x9 x10 x11 x12 x13 x14 x15 x16 x17 6 (by decide) 4096 x16 x17 rfl rfl r j _ (by simp)]
  rfl

/-- The reshaped decay rates. -/
theorem v51_eq :
    val_main_v51 (F := Ideal) x0 x1 x4 x5 x6 x7 x8 x9 x10 x11 x12 x13 x14 x15 x16 x17
      = shapeCast S8192x1024x4 (Spec.decay x0 x1 x16 x17) shapeCasts_S8192x4096_S8192x1024x4 := by
  unfold val_main_v51
  rw [v50_eq]

/-- The output gate as an array. -/
theorem go_eq :
    val_main_v28 (F := Ideal) x0 x1 x4 x5 x6 x7 x8 x9 x10 x11 x12 x13 x14 x15 x16 x17 = Spec.go x0 x1 x8 x9 := by
  funext i
  obtain ⟨r, q, rfl⟩ : ∃ (r : Fin 8192) (q : Fin 1024), i = ix2 r q := ⟨i 0, i 1, eq_ix2 i⟩
  rw [Spec.go_ix2, v28_eq]
  rfl

/-- The first new cell state: forget gate times the previous state plus input gate times candidate. -/
theorem v54_eq (x2 : Spec.Mat 8192 1024) :
    val_main_v54 (F := Ideal) x0 x1 x2 x4 x5 x6 x7 x8 x9 x10 x11 x12 x13 x14 x15 x16 x17
      = Spec.cell x0 x1 x2 x6 x7 x4 x5 x14 x15 := by
  funext i
  obtain ⟨r, q, rfl⟩ : ∃ (r : Fin 8192) (q : Fin 1024), i = ix2 r q := ⟨i 0, i 1, eq_ix2 i⟩
  rw [Spec.cell_ix2, val_main_v54_apply, val_main_v52_apply, val_main_v53_apply, v21_eq, v14_eq, v44_eq]
  rfl

/-- The second new cell state, with the second pair of gates. -/
theorem v57_eq (x3 : Spec.Mat 8192 1024) :
    val_main_v57 (F := Ideal) x0 x1 x3 x4 x5 x6 x7 x8 x9 x10 x11 x12 x13 x14 x15 x16 x17
      = Spec.cell x0 x1 x3 x12 x13 x10 x11 x14 x15 := by
  funext i
  obtain ⟨r, q, rfl⟩ : ∃ (r : Fin 8192) (q : Fin 1024), i = ix2 r q := ⟨i 0, i 1, eq_ix2 i⟩
  rw [Spec.cell_ix2, val_main_v57_apply, val_main_v55_apply, val_main_v56_apply, v42_eq, v35_eq, v44_eq]
  rfl

end Results

/-- Every weakly fair execution of the reference terminates with its four results at the specification's
    arrays of the launch contents of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
          = Spec.cell (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg4)) (m ((c.tc : Thread nD τ).loc main_arg5)) (m ((c.tc : Thread nD τ).loc main_arg14)) (m ((c.tc : Thread nD τ).loc main_arg15))
      ∧ r.2.mem ((c.tc : Thread nD τ).loc main_v57)
          = Spec.cell (m ((c.tc : Thread nD τ).loc main_arg0)) (m ((c.tc : Thread nD τ).loc main_arg1)) (m ((c.tc : Thread nD τ).loc main_arg3)) (m ((c.tc : Thread nD τ).loc main_arg12)) (m ((c.tc : Thread nD τ).loc main_arg13)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_v51)
          = shapeCast S8192x1024x4 (Spec.decay (m ((c.tc : Thread nD τ).loc main_arg0)) (m ((c.tc : Thread nD τ).loc main_arg1)) (m ((c.tc : Thread nD τ).loc main_arg16)) (m ((c.tc : Thread nD τ).loc main_arg17))) Cert.ReferenceIdeal.Gen.shapeCasts_S8192x4096_S8192x1024x4
      ∧ r.2.mem ((c.tc : Thread nD τ).loc main_v28)
          = Spec.go (m ((c.tc : Thread nD τ).loc main_arg0)) (m ((c.tc : Thread nD τ).loc main_arg1)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (defs (F := Ideal)) _ _).mono (fun _ h c =>
    ⟨(h c).1.trans ((val_main_v54_eq m c).trans (v54_eq _ _ _ _ _ _ _ _ _ _ _ _ _ _ _ _ _)),
      (h c).2.1.trans ((val_main_v57_eq m c).trans (v57_eq _ _ _ _ _ _ _ _ _ _ _ _ _ _ _ _ _)),
      (h c).2.2.1.trans ((val_main_v51_eq m c).trans (v51_eq _ _ _ _ _ _ _ _ _ _ _ _ _ _ _ _)),
      (h c).2.2.2.1.trans ((val_main_v28_eq _ _ _ _ _ _ _ _ _ _ _ _ _ _ _ _).trans (go_eq _ _ _ _ _ _ _ _ _ _ _ _ _ _ _ _)),
      (h c).2.2.2.2⟩)
    (Cert.ReferenceIdeal.Value.run (F := Ideal) m ρ)

end Cert.ReferenceIdeal.RefValue

end
-- ==== Proof.lean ====
/-
  Kernel against reference for a continuous-time LSTM cell: two new cell states, a flat array of decay rates read as
  8192 x 1024 x 4, and an output gate, from x, h, two previous cell states and seven affine layers.

  The kernel forms each layer's pre-activation as x·Wx + h·Wh + b with the weight matrix cut at column 1024 and
  transposed; the reference joins x and h and forms one product with the joined weights.  On the extended reals both
  are, unit by unit and row by row, the sum over k < 1024 of x[r,k] W[j,k] plus the sum over k < 1024 of
  h[r,k] W[j,1024+k] plus b[j]: a sum over 2048 terms split at 1024, with no law beyond the commutative monoid of
  addition, so the finiteness precondition is never opened.  The sigmoid is one function whether spelt as one
  operation or as 1/(1+exp(-z)); the softplus is the same expression on both sides up to 0 - a = -a, and its
  not-a-number guard never fires.  The kernel program's frame and results come from chaining its host operations and
  its two kernel regions; the reference's from its run read stage by stage.  The idealization rewrote nothing, so
  the preservation claim is trivial.
-/
import proofs.«166638_j39719857553628_1_alg».proof.Defs
import proofs.«166638_j39719857553628_1_alg».proof.Proof.Gen.Kernel
import proofs.«166638_j39719857553628_1_alg».proof.Proof.Gen.KernelIdeal
import proofs.«166638_j39719857553628_1_alg».proof.Proof.Gen.ReferenceIdeal
import proofs.«166638_j39719857553628_1_alg».proof.Proof.Gen.Pre_finite_inputs
import proofs.«166638_j39719857553628_1_alg».proof.Proof.Kernel.Run
import proofs.«166638_j39719857553628_1_alg».proof.Proof.KernelIdeal.Run
import proofs.«166638_j39719857553628_1_alg».proof.Proof.Values
import proofs.«166638_j39719857553628_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Run.frame (F := Bits) m ρ

/-- So does the idealized kernel program. -/
theorem frame_ki : Cert.frame_KernelIdeal := fun m ρ _ => Cert.KernelIdeal.Run.frame (F := Ideal) m ρ

/-- So does the idealized reference: its run with the results dropped. -/
theorem frame_ri : Cert.frame_ReferenceIdeal := fun m ρ _ =>
  (θ_run Cert.ReferenceIdeal.defs _ _).mono (fun _ h c => (h c).2.2.2.2) (Cert.ReferenceIdeal.RefValue.run m ρ)

/-- The idealization rewrote no operation. -/
theorem preserves : Cert.preserves_Kernel_KernelIdeal := trivial

/-- Both idealized programs end with the specification's four arrays of the arguments; the arguments agree. -/
theorem algebraic : Cert.algebraic_KernelIdeal_ReferenceIdeal := by
  intro m ρ m' ρ' _ hagree
  refine ⟨fun c => Cert.KernelIdeal.Values.G7 m c, fun c => Cert.KernelIdeal.Values.G8 m c,
    fun c => shapeCast Cert.KernelIdeal.S8192x1024x4 (Cert.KernelIdeal.Values.G17 m c) Cert.KernelIdeal.Gen.shapeCasts_S8192x4096_S8192x1024x4,
    fun c => Cert.KernelIdeal.Values.G9 m c, Cert.KernelIdeal.Values.run m ρ, ?_⟩
  refine (θ_run Cert.ReferenceIdeal.defs _ _).mono (fun _ h c => ?_) (Cert.ReferenceIdeal.RefValue.run m' ρ')
  obtain ⟨a0, a1, a2, a3, a4, a5, a6, a7, a8, a9, a10, a11, a12, a13, a14, a15, a16, a17⟩ := hagree c
  refine ⟨(h c).1.trans ?_, (h c).2.1.trans ?_, (h c).2.2.1.trans ?_, (h c).2.2.2.1.trans ?_, (h c).2.2.2.2⟩
  · rw [a0, a1, a2, a6, a7, a4, a5, a14, a15]
  · rw [a0, a1, a3, a12, a13, a10, a11, a14, a15]
  · rw [a0, a1, a16, a17]
  · rw [a0, a1, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
